-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S32x64 .f32) (main_arg15 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32x64 .f32 := Host.absf main_arg14
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x128 .f32) (main_arg7 : FVec F S64 .f32) (main_arg8 : FVec F S64x128 .f32) (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S64x128 .f32) (main_arg7 : FVec F S64 .f32) (main_arg8 : FVec F S64x128 .f32) (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S10000x128 : Shape := ⟨2, ![10000, 128]⟩
abbrev S1x64 : Shape := ⟨2, ![1, 64]⟩
abbrev S50000x64 : Shape := ⟨2, ![50000, 64]⟩
abbrev S10000x64 : Shape := ⟨2, ![10000, 64]⟩
abbrev S128x64 : Shape := ⟨2, ![128, 64]⟩
abbrev S600000x64 : Shape := ⟨2, ![600000, 64]⟩
abbrev S512x64 : Shape := ⟨2, ![512, 64]⟩
abbrev S50000x1 : Shape := ⟨2, ![50000, 1]⟩
abbrev S1x32 : Shape := ⟨2, ![1, 32]⟩
abbrev S512x32 : Shape := ⟨2, ![512, 32]⟩
abbrev S64x32 : Shape := ⟨2, ![64, 32]⟩
abbrev S512 : Shape := ⟨1, ![512]⟩
abbrev S512x1 : Shape := ⟨2, ![512, 1]⟩

abbrev nBuf : Space → Nat
  | .hbm => 72
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x64, .f32⟩
  | .hbm, ⟨59, _⟩ => ⟨S_, .f32⟩
  | .hbm, ⟨60, _⟩ => ⟨S50000x64, .f32⟩
  | .hbm, ⟨61, _⟩ => ⟨S600000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S_, .f32⟩
  | .hbm, ⟨66, _⟩ => ⟨S512x64, .f32⟩
  | .hbm, ⟨67, _⟩ => ⟨S50000x1, .i32⟩
  | .hbm, ⟨68, _⟩ => ⟨S512x64, .f32⟩
  | .hbm, ⟨69, _⟩ => ⟨S1x64, .f32⟩
  | .hbm, ⟨70, _⟩ => ⟨S1x32, .f32⟩
  | .hbm, ⟨71, _⟩ => ⟨S512x32, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S64x128, .f32⟩
  | .local _ .vmem, ⟨14, _⟩ => ⟨S1x64, .f32⟩
  | .local _ .vmem, ⟨15, _⟩ => ⟨S64x128, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S512x64, .f32⟩
  | .local _ .vmem, ⟨28, _⟩ => ⟨S64x64, .f32⟩
  | .local _ .vmem, ⟨29, _⟩ => ⟨S1x64, .f32⟩
  | .local _ .vmem, ⟨30, _⟩ => ⟨S32x64, .f32⟩
  | .local _ .vmem, ⟨31, _⟩ => ⟨S1x32, .f32⟩
  | .local _ .vmem, ⟨32, _⟩ => ⟨S512x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S10000x128 : S1x128.Broadcasts S10000x128
  shapeCasts_S64_S1x64 : S64.ShapeCasts S1x64
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x128_p1_0_S128x64 : S64x128.Transposes [1, 0] S128x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S_S512x64 : S_.BroadcastsInDim S512x64 (![] : Fin 0 → Fin S512x64.rank)
  bcast_S50000_S50000x1_0 : S50000.BroadcastsInDim S50000x1 (![0] : Fin 1 → Fin S50000x1.rank)
  shapeCasts_S32_S1x32 : S32.ShapeCasts S1x32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x64_S512x64 : S1x64.Broadcasts S512x64
  transposes_S32x64_p1_0_S64x32 : S32x64.Transposes [1, 0] S64x32
  broadcasts_S1x32_S512x32 : S1x32.Broadcasts S512x32
  reduces_S512x32_S512 : S512x32.Reduces [1] S512
  shapeCasts_S512_S512x1 : S512.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x32.size a ≤ S512x32.size a
  hwx3_5 : ∀ i : grid3.Coords, EltTy.bits .f32 = 32 ∨ (Rect.block (s := S512x32) S512x32.size (cc3_transform_5 i) (hinb3_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S512x32.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S600000x64 : Shape := ⟨2, ![600000, 64]⟩
abbrev S512x64 : Shape := ⟨2, ![512, 64]⟩
abbrev S50000x1 : Shape := ⟨2, ![50000, 1]⟩
abbrev S64x32 : Shape := ⟨2, ![64, 32]⟩
abbrev S512x32 : Shape := ⟨2, ![512, 32]⟩
abbrev S1x32 : Shape := ⟨2, ![1, 32]⟩
abbrev S512 : Shape := ⟨1, ![512]⟩
abbrev S512x1 : Shape := ⟨2, ![512, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S128x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S128x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x64, .f32⟩
  | .hbm, ⟨77, _⟩ => ⟨S_, .f32⟩
  | .hbm, ⟨78, _⟩ => ⟨S50000x64, .f32⟩
  | .hbm, ⟨79, _⟩ => ⟨S600000x1, .i32⟩
  | .hbm, ⟨80, _⟩ => ⟨S50000x64, .f32⟩
  | .hbm, ⟨81, _⟩ => ⟨S64x64, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S64x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S512x64, .f32⟩
  | .hbm, ⟨91, _⟩ => ⟨S50000x1, .i32⟩
  | .hbm, ⟨92, _⟩ => ⟨S512x64, .f32⟩
  | .hbm, ⟨93, _⟩ => ⟨S64x64, .f32⟩
  | .hbm, ⟨94, _⟩ => ⟨S512x64, .f32⟩
  | .hbm, ⟨95, _⟩ => ⟨S1x64, .f32⟩
  | .hbm, ⟨96, _⟩ => ⟨S512x64, .f32⟩
  | .hbm, ⟨97, _⟩ => ⟨S512x64, .f32⟩
  | .hbm, ⟨98, _⟩ => ⟨S_, .f32⟩
  | .hbm, ⟨99, _⟩ => ⟨S512x64, .f32⟩
  | .hbm, ⟨100, _⟩ => ⟨S512x64, .f32⟩
  | .hbm, ⟨101, _⟩ => ⟨S64x32, .f32⟩
  | .hbm, ⟨102, _⟩ => ⟨S512x32, .f32⟩
  | .hbm, ⟨103, _⟩ => ⟨S1x32, .f32⟩
  | .hbm, ⟨104, _⟩ => ⟨S512x32, .f32⟩
  | .hbm, ⟨105, _⟩ => ⟨S512x32, .f32⟩
  | .hbm, ⟨106, _⟩ => ⟨S_, .f32⟩
  | .hbm, ⟨107, _⟩ => ⟨S512, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x32, .f32⟩
  | .hbm, ⟨113, _⟩ => ⟨S512x32, .f32⟩
  | .hbm, ⟨114, _⟩ => ⟨S512x32, .f32⟩
  | .hbm, ⟨115, _⟩ => ⟨S_, .f32⟩
  | .hbm, ⟨116, _⟩ => ⟨S512, .f32⟩
  | .hbm, ⟨117, _⟩ => ⟨S512x1, .f32⟩
  | .hbm, ⟨118, _⟩ => ⟨S512x1, .f32⟩
  | .hbm, ⟨119, _⟩ => ⟨S512x32, .f32⟩
  | .hbm, ⟨120, _⟩ => ⟨S512x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call0_cst : Ref sig .tc := ⟨.hbm, 41, rfl⟩
abbrev main_call0_v0 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_cst : Ref sig .tc := ⟨.hbm, 65, rfl⟩
abbrev main_call1_v0 : Ref sig .tc := ⟨.hbm, 66, rfl⟩
abbrev main_v41 : Ref sig .tc := ⟨.hbm, 67, rfl⟩
abbrev main_c_4 : Ref sig .tc := ⟨.hbm, 68, rfl⟩
abbrev main_v42 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_cst : Ref sig .tc := ⟨.hbm, 106, rfl⟩
abbrev main_call3_v0 : Ref sig .tc := ⟨.hbm, 107, rfl⟩
abbrev main_call3_cst_0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_cst_1 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_v74 : Ref sig .tc := ⟨.hbm, 120, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  bcast_S_S512x64 : S_.BroadcastsInDim S512x64 (![] : Fin 0 → Fin S512x64.rank)
  bcast_S50000_S50000x1_0 : S50000.BroadcastsInDim S50000x1 (![0] : Fin 1 → Fin S50000x1.rank)
  bcast_S1x64_S512x64_0_1 : S1x64.BroadcastsInDim S512x64 (![0, 1] : Fin 2 → Fin S512x64.rank)
  transposes_S32x64_S64x32_1_0 : S32x64.Transposes [1, 0] S64x32
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S512_d1 : S512x32.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

class Facts : Prop extends Facts₀ where

variable [Facts]
-- ==== Proof.LibDot.lean ====
/-
  A matrix product read at an entry.

  For dimension numbers that contract the left operand's second axis with the right operand's first and have no batch
  axes — an `[N, K]` by `[K, M]` product — the sum over the contraction index that the ideal instance gives for an
  entry `(p, q)` of the result is the textbook sum `∑ₖ l p k · r k q` over `k : Fin K`. The contraction index set has
  one axis, so it is re-indexed by its one coordinate; the operand indices at `(p, q)` and `k` are then `(p, k)` and
  `(k, q)`, read off the dimension numbers' lists.
-/
import Idealize.ShloMosaic.PureOps.Ideal.Laws
import Idealize.ShloMosaic.Lib.ValueIdx

noncomputable section

open scoped BigOperators

namespace Cert.LibDot

open Idealize.ShloMosaic Idealize.ShloMosaic.ValueIdx

variable {N K M : Nat} (D : DotDims ⟨2, ![N, K]⟩ ⟨2, ![K, M]⟩ ⟨2, ![N, M]⟩)

/-- The contraction index set of such a product has one axis … -/
theorem contr_rank (hlc : D.lhsContracting = [1]) : D.contr.rank = 1 := by
  rw [D.rank_contr, hlc]; rfl

/-- … of extent `K`. -/
theorem contr_size (hlc : D.lhsContracting = [1]) :
    D.contr.size ⟨0, by rw [contr_rank D hlc]; exact Nat.one_pos⟩ = K := by
  rw [D.size_contr 0 (by rw [hlc]; exact Nat.one_pos)]
  have : D.lhsContracting[0]'(by rw [hlc]; exact Nat.one_pos) = (1 : Fin 2) := by simp [hlc]
  rw [this]; rfl

/-- A coordinate of `ix2 p q` at an axis known to be the first. -/
theorem ix2_val_zero {n0 n1 : Nat} (p : Fin n0) (q : Fin n1) (n : Nat) (h : n < 2) (e : n = 0) :
    ((ix2 p q : (⟨2, ![n0, n1]⟩ : Shape).Idx) ⟨n, h⟩).val = p.val := by subst e; rfl

/-- A coordinate of `ix2 p q` at an axis known to be the second. -/
theorem ix2_val_one {n0 n1 : Nat} (p : Fin n0) (q : Fin n1) (n : Nat) (h : n < 2) (e : n = 1) :
    ((ix2 p q : (⟨2, ![n0, n1]⟩ : Shape).Idx) ⟨n, h⟩).val = q.val := by subst e; rfl

/-- The left operand's row at result entry `(p, q)` is `p`. -/
theorem lhs_row (hlb : D.lhsBatch = []) (hln : D.lhsNonContracting = [0]) (p : Fin N) (q : Fin M) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact ix2_val_zero p q _ _ (by simp [hlb, hln])

/-- The right operand's column at result entry `(p, q)` is `q`. -/
theorem rhs_col (hlb : D.lhsBatch = []) (hln : D.lhsNonContracting = [0]) (hrb : D.rhsBatch = []) (hrn : D.rhsNonContracting = [1])
    (p : Fin N) (q : Fin M) (k : D.contr.Idx) :
    (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact ix2_val_one p q _ _ (by simp [hlb, hln, hrn])

/-- THE PRODUCT AT AN ENTRY: the contraction sum is `∑ₖ l (p, k) · r (k, q)`. -/
theorem sum_contr (hlc : D.lhsContracting = [1]) (hrc : D.rhsContracting = [0]) (hlb : D.lhsBatch = [])
    (hln : D.lhsNonContracting = [0]) (hrb : D.rhsBatch = []) (hrn : D.rhsNonContracting = [1])
    (l : (⟨2, ![N, K]⟩ : Shape).Idx → EReal) (r : (⟨2, ![K, M]⟩ : Shape).Idx → EReal) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p q) ((contrEquiv1 D K (contr_rank D hlc) (contr_size D hlc)).symm k) = ix2 p k :=
    funext fun a => Fin.ext (by
      match a with
      | ⟨0, _⟩ => exact lhs_row D hlb hln p q _
      | ⟨1, _⟩ => exact (D.lhsIdx_val_of_single hlc _ _).trans hk)
  have er : D.rhsIdx (ix2 p q) ((contrEquiv1 D K (contr_rank D hlc) (contr_size D hlc)).symm k) = ix2 k q :=
    funext fun a => Fin.ext (by
      match a with
      | ⟨0, _⟩ => exact (D.rhsIdx_val_of_single hrc _ _).trans hk
      | ⟨1, _⟩ => exact rhs_col D hlb hln hrb hrn p q _)
  rw [el, er]

/-- A `tpu.matmul` into the zero accumulator, at an entry. -/
theorem matmul_zero_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    matmul D prec l r (constant ⟨2, ![N, M]⟩ .f32 0x00000000#32) (ix2 p q) = ∑ k : Fin K, l (ix2 p k) * r (ix2 k q) := by
  simp only [matmul]
  rw [Ideal.matmul_constant_zero_apply]
  exact sum_contr D hlc hrc hlb hln hrb hrn l r p q

/-- The host's `dot_general`, at an entry. -/
theorem dotGeneral_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    Host.dotGeneral D prec l r (ix2 p q) = ∑ k : Fin K, l (ix2 p k) * r (ix2 k q) := by
  simp only [Host.dotGeneral]
  rw [Ideal.dotGeneral_apply]
  exact sum_contr D hlc hrc hlb hln hrb hrn l r p q

end Cert.LibDot

end
-- ==== Proof.KPay.lean ====
/-
  The graph-convolution kernels' stored value, read at an entry.

  Each of the three kernels stores `max ((aggr · Wrelᵀ + x · Wrootᵀ) + bias) 0` (the last one without the `max`)
  over its block of rows. Read at row `p` and output feature `q` of the block, with the two products as sums over
  the input feature and the transposed weights read back as the weights at swapped coordinates, this is

      (∑ₖ aggr p k · Wrel q k + ∑ₖ x p k · Wroot q k) + bias 0 q .
-/
import proofs.«114097_j85770496901295_1_alg».proof.Proof.Gen.KernelIdeal.Skeleton
import proofs.«114097_j85770496901295_1_alg».proof.Proof.LibDot
import Idealize.ShloMosaic.Lib.Pipeline.Value
import Idealize.ShloMosaic.Lib.ValueLayout

noncomputable section

open scoped BigOperators

namespace Cert.KernelIdeal.KPay

open Cert.KernelIdeal Cert.KernelIdeal.Gen Idealize.ShloMosaic Idealize.ShloMosaic.ValueIdx

/-- The first layer's stored value at `(p, q)`. -/
theorem pay0_apply (x aggr : Vec Ideal S10000x128 .f32) (wrel wroot : Vec Ideal S128x128 .f32) (b : Vec Ideal S1x128 .f32)
    (p : Fin 10000) (q : Fin 128) :
    k0_pay1 (F := Ideal) x aggr wrel wroot b (ix2 p q)
      = max (((∑ k : Fin 128, aggr (ix2 p k) * wrel (ix2 q k)) + ∑ k : Fin 128, x (ix2 p k) * wroot (ix2 q k)) + b (ix2 (0 : Fin 1) q)) 0 := by
  unfold k0_pay1
  rw [shapeCast_self, shapeCast_self]
  rw [maximumf_apply, addf_apply, addf_apply]
  rw [LibDot.matmul_zero_apply _ rfl rfl rfl rfl rfl rfl, LibDot.matmul_zero_apply _ rfl rfl rfl rfl rfl rfl]
  simp only [broadcastTo_1b_ab_apply, broadcast_apply]
  have ht (w : Vec Ideal S128x128 .f32) (k : Fin 128) :
      transpose S128x128 [1, 0] w transposes_S128x128_p1_0_S128x128 (ix2 k q) = w (ix2 q k) := transpose_ix2_apply w _ k q
  simp only [ht]
  exact congrArg (max _) Ideal.ofBits_zero_f32

/-- The second layer's stored value at `(p, q)`: 128 input features, 64 output features. -/
theorem pay1_apply (x aggr : Vec Ideal S10000x128 .f32) (wrel wroot : Vec Ideal S64x128 .f32) (b : Vec Ideal S1x64 .f32)
    (p : Fin 10000) (q : Fin 64) :
    k1_pay1 (F := Ideal) x aggr wrel wroot b (ix2 p q)
      = max (((∑ k : Fin 128, aggr (ix2 p k) * wrel (ix2 q k)) + ∑ k : Fin 128, x (ix2 p k) * wroot (ix2 q k)) + b (ix2 (0 : Fin 1) q)) 0 := by
  unfold k1_pay1
  rw [shapeCast_self, shapeCast_self, shapeCast_self]
  rw [maximumf_apply, addf_apply, addf_apply]
  rw [LibDot.matmul_zero_apply _ rfl rfl rfl rfl rfl rfl, LibDot.matmul_zero_apply _ rfl rfl rfl rfl rfl rfl]
  simp only [broadcastTo_1b_ab_apply, broadcast_apply]
  have ht (w : Vec Ideal S64x128 .f32) (k : Fin 128) :
      transpose S128x64 [1, 0] w transposes_S64x128_p1_0_S128x64 (ix2 k q) = w (ix2 q k) := transpose_ix2_apply w _ k q
  simp only [ht]
  exact congrArg (max _) Ideal.ofBits_zero_f32

/-- The third layer's stored value at `(p, q)`: 64 input and output features, no positive part. -/
theorem pay2_apply (x aggr : Vec Ideal S10000x64 .f32) (wrel wroot : Vec Ideal S64x64 .f32) (b : Vec Ideal S1x64 .f32)
    (p : Fin 10000) (q : Fin 64) :
    k2_pay1 (F := Ideal) x aggr wrel wroot b (ix2 p q)
      = ((∑ k : Fin 64, aggr (ix2 p k) * wrel (ix2 q k)) + ∑ k : Fin 64, x (ix2 p k) * wroot (ix2 q k)) + b (ix2 (0 : Fin 1) q) := by
  unfold k2_pay1
  rw [shapeCast_self, shapeCast_self, shapeCast_self]
  rw [addf_apply, addf_apply]
  rw [LibDot.matmul_zero_apply _ rfl rfl rfl rfl rfl rfl, LibDot.matmul_zero_apply _ rfl rfl rfl rfl rfl rfl]
  simp only [broadcastTo_1b_ab_apply]
  have ht (w : Vec Ideal S64x64 .f32) (k : Fin 64) :
      transpose S64x64 [1, 0] w transposes_S64x64_p1_0_S64x64 (ix2 k q) = w (ix2 q k) := transpose_ix2_apply w _ k q
  simp only [ht]

end Cert.KernelIdeal.KPay

end
-- ==== Proof.Spec.lean ====
/-
  What one layer of the network computes, index by index, on the extended reals.

  A graph-convolution layer takes node features `X`, the neighbourhood sums `A` of those features, two weight
  matrices stored output-major (`W q k`: output feature `q`, input feature `k`) and a bias row, and returns at node
  `p` and output feature `q`

      (∑ₖ A p k · Wrel q k  +  ∑ₖ X p k · Wroot q k)  +  b q .

  The classifier head takes pooled features `G`, applies a dense layer followed by `max · 0`, a second dense layer, and
  then the logarithm of the row-wise softmax in its shifted form: with `s` the scores and `μ p` the largest score of
  row `p`, the result is `(s p q − μ p) − log ∑ᵣ exp (s p r − μ p)`.

  Both programs are read against these functions; nothing here mentions a program.
-/
import Idealize.ShloMosaic.PureOps.Ideal
import Idealize.ShloMosaic.Lib.ValueIdx
import Mathlib.Data.Finset.Fold

noncomputable section

open scoped BigOperators

namespace Cert.Spec

open Idealize.ShloMosaic Idealize.ShloMosaic.ValueIdx

/-- A rank-2 array of extended reals. -/
abbrev Arr2 (n0 n1 : Nat) : Type := (⟨2, ![n0, n1]⟩ : Shape).Idx → EReal

/-- The dense part of a graph-convolution layer at node `p`, output feature `q`. -/
def convAt {n fi fo : Nat} (X A : Arr2 n fi) (Wrel : Arr2 fo fi) (b : Fin fo → EReal) (Wroot : Arr2 fo fi)
    (p : Fin n) (q : Fin fo) : EReal :=
  ((∑ k : Fin fi, A (ix2 p k) * Wrel (ix2 q k)) + ∑ k : Fin fi, X (ix2 p k) * Wroot (ix2 q k)) + b q

/-- The layer as an array. -/
def conv {n fi fo : Nat} (X A : Arr2 n fi) (Wrel : Arr2 fo fi) (b : Fin fo → EReal) (Wroot : Arr2 fo fi) : Arr2 n fo :=
  fun i => convAt X A Wrel b Wroot (i 0) (i 1)

/-- The layer followed by the positive part. -/
def convRelu {n fi fo : Nat} (X A : Arr2 n fi) (Wrel : Arr2 fo fi) (b : Fin fo → EReal) (Wroot : Arr2 fo fi) : Arr2 n fo :=
  fun i => max (convAt X A Wrel b Wroot (i 0) (i 1)) 0

theorem conv_apply {n fi fo : Nat} (X A : Arr2 n fi) (Wrel : Arr2 fo fi) (b : Fin fo → EReal) (Wroot : Arr2 fo fi)
    (p : Fin n) (q : Fin fo) : conv X A Wrel b Wroot (ix2 p q) = convAt X A Wrel b Wroot p q := rfl

theorem convRelu_apply {n fi fo : Nat} (X A : Arr2 n fi) (Wrel : Arr2 fo fi) (b : Fin fo → EReal) (Wroot : Arr2 fo fi)
    (p : Fin n) (q : Fin fo) : convRelu X A Wrel b Wroot (ix2 p q) = max (convAt X A Wrel b Wroot p q) 0 := rfl

/-- The same sum with the bias added before the second product sum: addition of extended reals commutes and
    associates, infinities included. -/
theorem convAt_bias_first {n fi fo : Nat} (X A : Arr2 n fi) (Wrel : Arr2 fo fi) (b : Fin fo → EReal) (Wroot : Arr2 fo fi)
    (p : Fin n) (q : Fin fo) :
    ((∑ k : Fin fi, A (ix2 p k) * Wrel (ix2 q k)) + b q) + ∑ k : Fin fi, X (ix2 p k) * Wroot (ix2 q k)
      = convAt X A Wrel b Wroot p q := by
  unfold convAt
  exact add_right_comm _ _ _

/-- The hidden activations of the head: a dense layer and the positive part. -/
def hidAt {g f h : Nat} (G : Arr2 g f) (W1 : Arr2 h f) (b1 : Fin h → EReal) (p : Fin g) (j : Fin h) : EReal :=
  max ((∑ k : Fin f, G (ix2 p k) * W1 (ix2 j k)) + b1 j) 0

/-- The scores: a second dense layer over the hidden activations. -/
def scoreAt {g f h o : Nat} (G : Arr2 g f) (W1 : Arr2 h f) (b1 : Fin h → EReal) (W2 : Arr2 o h) (b2 : Fin o → EReal)
    (p : Fin g) (q : Fin o) : EReal :=
  (∑ j : Fin h, hidAt G W1 b1 p j * W2 (ix2 q j)) + b2 q

/-- The largest score of a row, folded from `lo` (the programs start from the word of `-∞`). -/
def rowMax {o : Nat} (lo : EReal) (s : Fin o → EReal) : EReal := (Finset.univ : Finset (Fin o)).fold max lo s

/-- Log-softmax of a row in its shifted form. -/
def logSoftmaxAt {o : Nat} (lo : EReal) (s : Fin o → EReal) (q : Fin o) : EReal :=
  (s q - rowMax lo s) - Ideal.log (∑ r : Fin o, Ideal.exp (s r - rowMax lo s))

/-- The head as an array. -/
def head {g f h o : Nat} (lo : EReal) (G : Arr2 g f) (W1 : Arr2 h f) (b1 : Fin h → EReal) (W2 : Arr2 o h) (b2 : Fin o → EReal) :
    Arr2 g o :=
  fun i => logSoftmaxAt lo (scoreAt G W1 b1 W2 b2 (i 0)) (i 1)

theorem head_apply {g f h o : Nat} (lo : EReal) (G : Arr2 g f) (W1 : Arr2 h f) (b1 : Fin h → EReal) (W2 : Arr2 o h)
    (b2 : Fin o → EReal) (p : Fin g) (q : Fin o) :
    head lo G W1 b1 W2 b2 (ix2 p q) = logSoftmaxAt lo (scoreAt G W1 b1 W2 b2 p) q := rfl

/-- Folding `max` from `lo` never goes below `lo`, so one more `max` with `lo` changes nothing. -/
theorem max_lo_rowMax {o : Nat} (lo : EReal) (s : Fin o → EReal) : max lo (rowMax lo s) = rowMax lo s :=
  max_eq_right ((Finset.le_fold_max lo).mpr (Or.inl le_rfl))

end Cert.Spec

end
-- ==== Proof.KReg0.lean ====
/-
  The first graph-convolution launch, read as one function of the arrays it finds.

  The launch walks five blocks of 10000 rows. At block `t` the kernel reads rows `10000·t … 10000·t + 9999` of the
  node features and of their neighbourhood sums, the two whole weight matrices and the bias row, and writes the same
  rows of the result. Row `p` of block `t` is row `10000·t + p` of the arrays, the stored value at `(p, q)` depends
  on that row only, and the five blocks tile the 50000 rows: so the result array ends as the layer function
  `Spec.convRelu` of the whole arrays.
-/
import proofs.«114097_j85770496901295_1_alg».proof.Proof.Gen.KernelIdeal.Frame
import proofs.«114097_j85770496901295_1_alg».proof.Proof.KPay
import proofs.«114097_j85770496901295_1_alg».proof.Proof.Spec

set_option maxRecDepth 16384

noncomputable section

open scoped BigOperators

namespace Cert.KernelIdeal.KReg0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer function of the arrays the launch finds. -/
def G (c : Dev nD) : Spec.Arr2 50000 128 :=
  Spec.convRelu (V c main_arg0 : S50000x128.Idx → EReal) (V c main_v13 : S50000x128.Idx → EReal)
    (V c main_arg3 : S128x128.Idx → EReal) (fun q => (V c main_v14 : S1x128.Idx → EReal) (ix2 (0 : Fin 1) q))
    (V c main_arg5 : S128x128.Idx → EReal)

/-- The block indices over the grid: the row-blocked windows are at block `t`, the resident ones at block 0. -/
theorem idx : ∀ t : Fin cfg0.N,
    win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0 :=
  (by decide +kernel : ∀ t : Fin grid0.N, _)

/-- Row `p` of the feature block at point `t` is row `10000·t + p` of the features. -/
theorem blk_x (c : Dev nD) (t : Fin cfg0.N) (x : S10000x128.Idx) (k : S50000x128.Idx)
    (hk0 : (k 0).val = 10000 * t.val + (x 0).val) (hk1 : (k 1).val = (x 1).val) :
    (iblk0 V c 0 t : Vec Ideal S10000x128 .f32) x = (V c main_arg0 : S50000x128.Idx → EReal) k := by
  obtain ⟨e0, e1, -⟩ := idx t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- Row `p` of the neighbourhood-sum block at point `t` is row `10000·t + p` of the sums. -/
theorem blk_a (c : Dev nD) (t : Fin cfg0.N) (x : S10000x128.Idx) (k : S50000x128.Idx)
    (hk0 : (k 0).val = 10000 * t.val + (x 0).val) (hk1 : (k 1).val = (x 1).val) :
    (iblk0 V c 1 t : Vec Ideal S10000x128 .f32) x = (V c main_v13 : S50000x128.Idx → EReal) k := by
  obtain ⟨-, -, e0, e1, -⟩ := idx t
  unfold iblk0
  rw [View.read_apply]
  show V c main_v13 _ = V c main_v13 _
  congr 1
  funext a
  apply Fin.ext
  match a with
  | ⟨0, _⟩ => show win0_1.index t 0 * 10000 + 1 * (x 0).val = (k 0).val; rw [e0, hk0]; omega
  | ⟨1, _⟩ => show win0_1.index t 1 * 128 + 1 * (x 1).val = (k 1).val; rw [e1, hk1]; omega

/-- The resident blocks are the whole arrays. -/
theorem blk_wrel (c : Dev nD) (t : Fin cfg0.N) (x : S128x128.Idx) :
    (iblk0 V c 2 t : Vec Ideal S128x128 .f32) x = (V c main_arg3 : S128x128.Idx → EReal) x := by
  obtain ⟨-, -, -, -, e0, e1, -⟩ := idx t
  unfold iblk0
  rw [View.read_apply]
  show V c main_arg3 _ = V c main_arg3 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

theorem blk_b (c : Dev nD) (t : Fin cfg0.N) (x : S1x128.Idx) :
    (iblk0 V c 3 t : Vec Ideal S1x128 .f32) x = (V c main_v14 : S1x128.Idx → EReal) x := by
  obtain ⟨-, -, -, -, -, -, e0, e1, -⟩ := idx t
  unfold iblk0
  rw [View.read_apply]
  show V c main_v14 _ = V c main_v14 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

theorem blk_wroot (c : Dev nD) (t : Fin cfg0.N) (x : S128x128.Idx) :
    (iblk0 V c 4 t : Vec Ideal S128x128 .f32) x = (V c main_arg5 : S128x128.Idx → EReal) x := by
  obtain ⟨-, -, -, -, -, -, -, -, e0, e1, -⟩ := idx t
  unfold iblk0
  rw [View.read_apply]
  show V c main_arg5 _ = V c main_arg5 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- WHAT POINT `t` WRITES BACK is block `t` of the layer function. -/
theorem flushed_eq (c : Dev nD) (t : Fin cfg0.N) :
    (dat0 V c).flushed 5 t = ((cfg0.win 5).blk t).view.read (Elt Ideal) (G V c) := by
  have hN : cfg0.N = 5 := N_0
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  refine (KPay.pay0_apply (iblk0 V c 0 t) (iblk0 V c 1 t) (iblk0 V c 2 t) (iblk0 V c 4 t) (iblk0 V c 3 t) p q).trans ?_
  have hP : 10000 * t.val + p.val < 50000 := by have := t.isLt; have := p.isLt; omega
  obtain ⟨-, -, -, -, -, -, -, -, -, -, e0, e1⟩ := idx t
  have he : ((cfg0.win 5).blk t).view.emb (ix2 p q) = (ix2 (⟨10000 * t.val + p.val, hP⟩ : Fin 50000) q : S50000x128.Idx) := by
    funext a
    apply Fin.ext
    match a with
    | ⟨0, _⟩ => show win0_5.index t 0 * 10000 + 1 * p.val = 10000 * t.val + p.val; rw [e0]; omega
    | ⟨1, _⟩ => show win0_5.index t 1 * 128 + 1 * q.val = q.val; rw [e1]; omega
  rw [View.read_apply, he]
  unfold G
  rw [Spec.convRelu_apply]
  unfold Spec.convAt
  have hx (k : Fin 128) : (iblk0 V c 0 t : Vec Ideal S10000x128 .f32) (ix2 p k)
      = (V c main_arg0 : S50000x128.Idx → EReal) (ix2 (⟨10000 * t.val + p.val, hP⟩ : Fin 50000) k) := blk_x V c t _ _ rfl rfl
  have ha (k : Fin 128) : (iblk0 V c 1 t : Vec Ideal S10000x128 .f32) (ix2 p k)
      = (V c main_v13 : S50000x128.Idx → EReal) (ix2 (⟨10000 * t.val + p.val, hP⟩ : Fin 50000) k) := blk_a V c t _ _ rfl rfl
  simp only [hx, ha, blk_wrel, blk_b, blk_wroot, cast_eq]

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v15).slice (win0_5.rect t)).set ↔ _
  rw [View.set_slice_whole, Rect.mem_set_unit]
  exact Iff.rfl

/-- The five blocks tile the rows: row `r` is in block `r / 10000`. -/
theorem cover (i : S50000x128.Idx) : ∃ t : Fin cfg0.N, (cfg0.win 5).flush t = true ∧ i ∈ ((cfg0.win 5).blk t).view.set := by
  have hN : cfg0.N = 5 := N_0
  have hi0 : (i 0).val < 50000 := (i 0).isLt
  have hi1 : (i 1).val < 128 := (i 1).isLt
  refine ⟨⟨(i 0).val / 10000, by omega⟩, flush0_5 _, ?_⟩
  rw [mem_blk]
  obtain ⟨-, -, -, -, -, -, -, -, -, -, e0, e1⟩ := idx ⟨(i 0).val / 10000, by omega⟩
  intro a
  match a with
  | ⟨0, _⟩ => show win0_5.index _ 0 * 10000 ≤ (i 0).val ∧ (i 0).val < win0_5.index _ 0 * 10000 + 10000; rw [e0]; show (i 0).val / 10000 * 10000 ≤ _ ∧ _ < (i 0).val / 10000 * 10000 + 10000; omega
  | ⟨1, _⟩ => show win0_5.index _ 1 * 128 ≤ (i 1).val ∧ (i 1).val < win0_5.index _ 1 * 128 + 128; rw [e1]; omega

/-- THE RESULT ARRAY after the launch: the layer function of the arrays the launch found. -/
theorem final (c : Dev nD) :
    (dat0 V c).arrAt 5 cfg0.N = Spec.convRelu (V c main_arg0 : S50000x128.Idx → EReal) (V c main_v13 : S50000x128.Idx → EReal)
      (V c main_arg3 : S128x128.Idx → EReal) (fun q => (V c main_v14 : S1x128.Idx → EReal) (ix2 (0 : Fin 1) q)) (V c main_arg5 : S128x128.Idx → EReal) :=
  (dat0 V c).arrAt_eq_of_cover 5 (G V c) (fun t _ => flushed_eq V c t) cover

end Cert.KernelIdeal.KReg0

end
-- ==== Proof.KReg1.lean ====
/-
  The second graph-convolution launch, read as one function of the arrays it finds.

  The launch walks five blocks of 10000 rows. At block `t` the kernel reads rows `10000·t … 10000·t + 9999` of the
  node features and of their neighbourhood sums, the two whole weight matrices and the bias row, and writes the same
  rows of the result. Row `p` of block `t` is row `10000·t + p` of the arrays, the stored value at `(p, q)` depends
  on that row only, and the five blocks tile the 50000 rows: so the result array ends as the layer function
  `Spec.convRelu` of the whole arrays.
-/
import proofs.«114097_j85770496901295_1_alg».proof.Proof.Gen.KernelIdeal.Frame
import proofs.«114097_j85770496901295_1_alg».proof.Proof.KPay
import proofs.«114097_j85770496901295_1_alg».proof.Proof.Spec

set_option maxRecDepth 16384

noncomputable section

open scoped BigOperators

namespace Cert.KernelIdeal.KReg1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer function of the arrays the launch finds. -/
def G (c : Dev nD) : Spec.Arr2 50000 64 :=
  Spec.convRelu (V c main_v15 : S50000x128.Idx → EReal) (V c main_v25 : S50000x128.Idx → EReal)
    (V c main_arg6 : S64x128.Idx → EReal) (fun q => (V c main_v26 : S1x64.Idx → EReal) (ix2 (0 : Fin 1) q))
    (V c main_arg8 : S64x128.Idx → EReal)

/-- The block indices over the grid: the row-blocked windows are at block `t`, the resident ones at block 0. -/
theorem idx : ∀ t : Fin cfg1.N,
    win1_0.index t 0 = t.val ∧ win1_0.index t 1 = 0 ∧ win1_1.index t 0 = t.val ∧ win1_1.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0 :=
  (by decide +kernel : ∀ t : Fin grid1.N, _)

/-- Row `p` of the feature block at point `t` is row `10000·t + p` of the features. -/
theorem blk_x (c : Dev nD) (t : Fin cfg1.N) (x : S10000x128.Idx) (k : S50000x128.Idx)
    (hk0 : (k 0).val = 10000 * t.val + (x 0).val) (hk1 : (k 1).val = (x 1).val) :
    (iblk1 V c 0 t : Vec Ideal S10000x128 .f32) x = (V c main_v15 : S50000x128.Idx → EReal) k := by
  obtain ⟨e0, e1, -⟩ := idx t
  unfold iblk1
  rw [View.read_apply]
  show V c main_v15 _ = V c main_v15 _
  congr 1
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- Row `p` of the neighbourhood-sum block at point `t` is row `10000·t + p` of the sums. -/
theorem blk_a (c : Dev nD) (t : Fin cfg1.N) (x : S10000x128.Idx) (k : S50000x128.Idx)
    (hk0 : (k 0).val = 10000 * t.val + (x 0).val) (hk1 : (k 1).val = (x 1).val) :
    (iblk1 V c 1 t : Vec Ideal S10000x128 .f32) x = (V c main_v25 : S50000x128.Idx → EReal) k := by
  obtain ⟨-, -, e0, e1, -⟩ := idx t
  unfold iblk1
  rw [View.read_apply]
  show V c main_v25 _ = V c main_v25 _
  congr 1
  funext a
  apply Fin.ext
  match a with
  | ⟨0, _⟩ => show win1_1.index t 0 * 10000 + 1 * (x 0).val = (k 0).val; rw [e0, hk0]; omega
  | ⟨1, _⟩ => show win1_1.index t 1 * 128 + 1 * (x 1).val = (k 1).val; rw [e1, hk1]; omega

/-- The resident blocks are the whole arrays. -/
theorem blk_wrel (c : Dev nD) (t : Fin cfg1.N) (x : S64x128.Idx) :
    (iblk1 V c 2 t : Vec Ideal S64x128 .f32) x = (V c main_arg6 : S64x128.Idx → EReal) x := by
  obtain ⟨-, -, -, -, e0, e1, -⟩ := idx t
  unfold iblk1
  rw [View.read_apply]
  show V c main_arg6 _ = V c main_arg6 _
  congr 1
  funext a
  apply Fin.ext
  match a with
  | ⟨0, _⟩ => show win1_2.index t 0 * 64 + 1 * (x 0).val = (x 0).val; rw [e0]; omega
  | ⟨1, _⟩ => show win1_2.index t 1 * 128 + 1 * (x 1).val = (x 1).val; rw [e1]; omega

theorem blk_b (c : Dev nD) (t : Fin cfg1.N) (x : S1x64.Idx) :
    (iblk1 V c 3 t : Vec Ideal S1x64 .f32) x = (V c main_v26 : S1x64.Idx → EReal) x := by
  obtain ⟨-, -, -, -, -, -, e0, e1, -⟩ := idx t
  unfold iblk1
  rw [View.read_apply]
  show V c main_v26 _ = V c main_v26 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

theorem blk_wroot (c : Dev nD) (t : Fin cfg1.N) (x : S64x128.Idx) :
    (iblk1 V c 4 t : Vec Ideal S64x128 .f32) x = (V c main_arg8 : S64x128.Idx → EReal) x := by
  obtain ⟨-, -, -, -, -, -, -, -, e0, e1, -⟩ := idx t
  unfold iblk1
  rw [View.read_apply]
  show V c main_arg8 _ = V c main_arg8 _
  congr 1
  funext a
  apply Fin.ext
  match a with
  | ⟨0, _⟩ => show win1_4.index t 0 * 64 + 1 * (x 0).val = (x 0).val; rw [e0]; omega
  | ⟨1, _⟩ => show win1_4.index t 1 * 128 + 1 * (x 1).val = (x 1).val; rw [e1]; omega

/-- WHAT POINT `t` WRITES BACK is block `t` of the layer function. -/
theorem flushed_eq (c : Dev nD) (t : Fin cfg1.N) :
    (dat1 V c).flushed 5 t = ((cfg1.win 5).blk t).view.read (Elt Ideal) (G V c) := by
  have hN : cfg1.N = 5 := N_1
  show (cfg1.win 5).cut (grid1.coords t) ((dat1 V c).after 5 t) = _
  rw [after1_5]
  unfold out1_5
  rw [View.canon_unit_zero hz]
  simp only [View.ld_unit_zero (S := S10000x128) hz, View.ld_unit_zero (S := S64x128) hz, View.ld_unit_zero (S := S1x64) hz]
  funext j
  obtain ⟨p, q, rfl⟩ : ∃ (p : Fin 10000) (q : Fin 64), j = ix2 p q := ⟨j 0, j 1, eq_ix2 j⟩
  refine (KPay.pay1_apply (iblk1 V c 0 t) (iblk1 V c 1 t) (iblk1 V c 2 t) (iblk1 V c 4 t) (iblk1 V c 3 t) p q).trans ?_
  have hP : 10000 * t.val + p.val < 50000 := by have := t.isLt; have := p.isLt; omega
  obtain ⟨-, -, -, -, -, -, -, -, -, -, e0, e1⟩ := idx t
  have he : ((cfg1.win 5).blk t).view.emb (ix2 p q) = (ix2 (⟨10000 * t.val + p.val, hP⟩ : Fin 50000) q : S50000x64.Idx) := by
    funext a
    apply Fin.ext
    match a with
    | ⟨0, _⟩ => show win1_5.index t 0 * 10000 + 1 * p.val = 10000 * t.val + p.val; rw [e0]; omega
    | ⟨1, _⟩ => show win1_5.index t 1 * 64 + 1 * q.val = q.val; rw [e1]; omega
  rw [View.read_apply, he]
  unfold G
  rw [Spec.convRelu_apply]
  unfold Spec.convAt
  have hx (k : Fin 128) : (iblk1 V c 0 t : Vec Ideal S10000x128 .f32) (ix2 p k)
      = (V c main_v15 : S50000x128.Idx → EReal) (ix2 (⟨10000 * t.val + p.val, hP⟩ : Fin 50000) k) := blk_x V c t _ _ rfl rfl
  have ha (k : Fin 128) : (iblk1 V c 1 t : Vec Ideal S10000x128 .f32) (ix2 p k)
      = (V c main_v25 : S50000x128.Idx → EReal) (ix2 (⟨10000 * t.val + p.val, hP⟩ : Fin 50000) k) := blk_a V c t _ _ rfl rfl
  simp only [hx, ha, blk_wrel, blk_b, blk_wroot, cast_eq]

/-- An index of the result array is in point `t`'s block iff each coordinate is in the block's range on its axis. -/
theorem mem_blk (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v27).slice (win1_5.rect t)).set ↔ _
  rw [View.set_slice_whole, Rect.mem_set_unit]
  exact Iff.rfl

/-- The five blocks tile the rows: row `r` is in block `r / 10000`. -/
theorem cover (i : S50000x64.Idx) : ∃ t : Fin cfg1.N, (cfg1.win 5).flush t = true ∧ i ∈ ((cfg1.win 5).blk t).view.set := by
  have hN : cfg1.N = 5 := N_1
  have hi0 : (i 0).val < 50000 := (i 0).isLt
  have hi1 : (i 1).val < 64 := (i 1).isLt
  refine ⟨⟨(i 0).val / 10000, by omega⟩, flush1_5 _, ?_⟩
  rw [mem_blk]
  obtain ⟨-, -, -, -, -, -, -, -, -, -, e0, e1⟩ := idx ⟨(i 0).val / 10000, by omega⟩
  intro a
  match a with
  | ⟨0, _⟩ => show win1_5.index _ 0 * 10000 ≤ (i 0).val ∧ (i 0).val < win1_5.index _ 0 * 10000 + 10000; rw [e0]; show (i 0).val / 10000 * 10000 ≤ _ ∧ _ < (i 0).val / 10000 * 10000 + 10000; omega
  | ⟨1, _⟩ => show win1_5.index _ 1 * 64 ≤ (i 1).val ∧ (i 1).val < win1_5.index _ 1 * 64 + 64; rw [e1]; omega

/-- THE RESULT ARRAY after the launch: the layer function of the arrays the launch found. -/
theorem final (c : Dev nD) :
    (dat1 V c).arrAt 5 cfg1.N = Spec.convRelu (V c main_v15 : S50000x128.Idx → EReal) (V c main_v25 : S50000x128.Idx → EReal)
      (V c main_arg6 : S64x128.Idx → EReal) (fun q => (V c main_v26 : S1x64.Idx → EReal) (ix2 (0 : Fin 1) q)) (V c main_arg8 : S64x128.Idx → EReal) :=
  (dat1 V c).arrAt_eq_of_cover 5 (G V c) (fun t _ => flushed_eq V c t) cover

end Cert.KernelIdeal.KReg1

end
-- ==== Proof.KReg2.lean ====
/-
  The third graph-convolution launch, read as one function of the arrays it finds.

  The launch walks five blocks of 10000 rows. At block `t` the kernel reads rows `10000·t … 10000·t + 9999` of the
  node features and of their neighbourhood sums, the two whole weight matrices and the bias row, and writes the same
  rows of the result. Row `p` of block `t` is row `10000·t + p` of the arrays, the stored value at `(p, q)` depends
  on that row only, and the five blocks tile the 50000 rows: so the result array ends as the layer function
  `Spec.conv` of the whole arrays.
-/
import proofs.«114097_j85770496901295_1_alg».proof.Proof.Gen.KernelIdeal.Frame
import proofs.«114097_j85770496901295_1_alg».proof.Proof.KPay
import proofs.«114097_j85770496901295_1_alg».proof.Proof.Spec

set_option maxRecDepth 16384

noncomputable section

open scoped BigOperators

namespace Cert.KernelIdeal.KReg2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer function of the arrays the launch finds. -/
def G (c : Dev nD) : Spec.Arr2 50000 64 :=
  Spec.conv (V c main_v27 : S50000x64.Idx → EReal) (V c main_v37 : S50000x64.Idx → EReal)
    (V c main_arg9 : S64x64.Idx → EReal) (fun q => (V c main_v38 : S1x64.Idx → EReal) (ix2 (0 : Fin 1) q))
    (V c main_arg11 : S64x64.Idx → EReal)

/-- The block indices over the grid: the row-blocked windows are at block `t`, the resident ones at block 0. -/
theorem idx : ∀ t : Fin cfg2.N,
    win2_0.index t 0 = t.val ∧ win2_0.index t 1 = 0 ∧ win2_1.index t 0 = t.val ∧ win2_1.index t 1 = 0
    ∧ win2_2.index t 0 = 0 ∧ win2_2.index t 1 = 0 ∧ win2_3.index t 0 = 0 ∧ win2_3.index t 1 = 0
    ∧ win2_4.index t 0 = 0 ∧ win2_4.index t 1 = 0 ∧ win2_5.index t 0 = t.val ∧ win2_5.index t 1 = 0 :=
  (by decide +kernel : ∀ t : Fin grid2.N, _)

/-- Row `p` of the feature block at point `t` is row `10000·t + p` of the features. -/
theorem blk_x (c : Dev nD) (t : Fin cfg2.N) (x : S10000x64.Idx) (k : S50000x64.Idx)
    (hk0 : (k 0).val = 10000 * t.val + (x 0).val) (hk1 : (k 1).val = (x 1).val) :
    (iblk2 V c 0 t : Vec Ideal S10000x64 .f32) x = (V c main_v27 : S50000x64.Idx → EReal) k := by
  obtain ⟨e0, e1, -⟩ := idx t
  unfold iblk2
  rw [View.read_apply]
  show V c main_v27 _ = V c main_v27 _
  congr 1
  funext a
  apply Fin.ext
  match a with
  | ⟨0, _⟩ => show win2_0.index t 0 * 10000 + 1 * (x 0).val = (k 0).val; rw [e0, hk0]; omega
  | ⟨1, _⟩ => show win2_0.index t 1 * 64 + 1 * (x 1).val = (k 1).val; rw [e1, hk1]; omega

/-- Row `p` of the neighbourhood-sum block at point `t` is row `10000·t + p` of the sums. -/
theorem blk_a (c : Dev nD) (t : Fin cfg2.N) (x : S10000x64.Idx) (k : S50000x64.Idx)
    (hk0 : (k 0).val = 10000 * t.val + (x 0).val) (hk1 : (k 1).val = (x 1).val) :
    (iblk2 V c 1 t : Vec Ideal S10000x64 .f32) x = (V c main_v37 : S50000x64.Idx → EReal) k := by
  obtain ⟨-, -, e0, e1, -⟩ := idx t
  unfold iblk2
  rw [View.read_apply]
  show V c main_v37 _ = V c main_v37 _
  congr 1
  funext a
  apply Fin.ext
  match a with
  | ⟨0, _⟩ => show win2_1.index t 0 * 10000 + 1 * (x 0).val = (k 0).val; rw [e0, hk0]; omega
  | ⟨1, _⟩ => show win2_1.index t 1 * 64 + 1 * (x 1).val = (k 1).val; rw [e1, hk1]; omega

/-- The resident blocks are the whole arrays. -/
theorem blk_wrel (c : Dev nD) (t : Fin cfg2.N) (x : S64x64.Idx) :
    (iblk2 V c 2 t : Vec Ideal S64x64 .f32) x = (V c main_arg9 : S64x64.Idx → EReal) x := by
  obtain ⟨-, -, -, -, e0, e1, -⟩ := idx t
  unfold iblk2
  rw [View.read_apply]
  show V c main_arg9 _ = V c main_arg9 _
  congr 1
  funext a
  apply Fin.ext
  match a with
  | ⟨0, _⟩ => show win2_2.index t 0 * 64 + 1 * (x 0).val = (x 0).val; rw [e0]; omega
  | ⟨1, _⟩ => show win2_2.index t 1 * 64 + 1 * (x 1).val = (x 1).val; rw [e1]; omega

theorem blk_b (c : Dev nD) (t : Fin cfg2.N) (x : S1x64.Idx) :
    (iblk2 V c 3 t : Vec Ideal S1x64 .f32) x = (V c main_v38 : S1x64.Idx → EReal) x := by
  obtain ⟨-, -, -, -, -, -, e0, e1, -⟩ := idx t
  unfold iblk2
  rw [View.read_apply]
  show V c main_v38 _ = V c main_v38 _
  congr 1
  funext a
  apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

theorem blk_wroot (c : Dev nD) (t : Fin cfg2.N) (x : S64x64.Idx) :
    (iblk2 V c 4 t : Vec Ideal S64x64 .f32) x = (V c main_arg11 : S64x64.Idx → EReal) x := by
  obtain ⟨-, -, -, -, -, -, -, -, e0, e1, -⟩ := idx t
  unfold iblk2
  rw [View.read_apply]
  show V c main_arg11 _ = V c main_arg11 _
  congr 1
  funext a
  apply Fin.ext
  match a with
  | ⟨0, _⟩ => show win2_4.index t 0 * 64 + 1 * (x 0).val = (x 0).val; rw [e0]; omega
  | ⟨1, _⟩ => show win2_4.index t 1 * 64 + 1 * (x 1).val = (x 1).val; rw [e1]; omega

/-- WHAT POINT `t` WRITES BACK is block `t` of the layer function. -/
theorem flushed_eq (c : Dev nD) (t : Fin cfg2.N) :
    (dat2 V c).flushed 5 t = ((cfg2.win 5).blk t).view.read (Elt Ideal) (G V c) := by
  have hN : cfg2.N = 5 := N_2
  show (cfg2.win 5).cut (grid2.coords t) ((dat2 V c).after 5 t) = _
  rw [after2_5]
  unfold out2_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (KPay.pay2_apply (iblk2 V c 0 t) (iblk2 V c 1 t) (iblk2 V c 2 t) (iblk2 V c 4 t) (iblk2 V c 3 t) p q).trans ?_
  have hP : 10000 * t.val + p.val < 50000 := by have := t.isLt; have := p.isLt; omega
  obtain ⟨-, -, -, -, -, -, -, -, -, -, e0, e1⟩ := idx t
  have he : ((cfg2.win 5).blk t).view.emb (ix2 p q) = (ix2 (⟨10000 * t.val + p.val, hP⟩ : Fin 50000) q : S50000x64.Idx) := by
    funext a
    apply Fin.ext
    match a with
    | ⟨0, _⟩ => show win2_5.index t 0 * 10000 + 1 * p.val = 10000 * t.val + p.val; rw [e0]; omega
    | ⟨1, _⟩ => show win2_5.index t 1 * 64 + 1 * q.val = q.val; rw [e1]; omega
  rw [View.read_apply, he]
  unfold G
  rw [Spec.conv_apply]
  unfold Spec.convAt
  have hx (k : Fin 64) : (iblk2 V c 0 t : Vec Ideal S10000x64 .f32) (ix2 p k)
      = (V c main_v27 : S50000x64.Idx → EReal) (ix2 (⟨10000 * t.val + p.val, hP⟩ : Fin 50000) k) := blk_x V c t _ _ rfl rfl
  have ha (k : Fin 64) : (iblk2 V c 1 t : Vec Ideal S10000x64 .f32) (ix2 p k)
      = (V c main_v37 : S50000x64.Idx → EReal) (ix2 (⟨10000 * t.val + p.val, hP⟩ : Fin 50000) k) := blk_a V c t _ _ rfl rfl
  simp only [hx, ha, blk_wrel, blk_b, blk_wroot, cast_eq]

/-- An index of the result array is in point `t`'s block iff each coordinate is in the block's range on its axis. -/
theorem mem_blk (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v39).slice (win2_5.rect t)).set ↔ _
  rw [View.set_slice_whole, Rect.mem_set_unit]
  exact Iff.rfl

/-- The five blocks tile the rows: row `r` is in block `r / 10000`. -/
theorem cover (i : S50000x64.Idx) : ∃ t : Fin cfg2.N, (cfg2.win 5).flush t = true ∧ i ∈ ((cfg2.win 5).blk t).view.set := by
  have hN : cfg2.N = 5 := N_2
  have hi0 : (i 0).val < 50000 := (i 0).isLt
  have hi1 : (i 1).val < 64 := (i 1).isLt
  refine ⟨⟨(i 0).val / 10000, by omega⟩, flush2_5 _, ?_⟩
  rw [mem_blk]
  obtain ⟨-, -, -, -, -, -, -, -, -, -, e0, e1⟩ := idx ⟨(i 0).val / 10000, by omega⟩
  intro a
  match a with
  | ⟨0, _⟩ => show win2_5.index _ 0 * 10000 ≤ (i 0).val ∧ (i 0).val < win2_5.index _ 0 * 10000 + 10000; rw [e0]; show (i 0).val / 10000 * 10000 ≤ _ ∧ _ < (i 0).val / 10000 * 10000 + 10000; omega
  | ⟨1, _⟩ => show win2_5.index _ 1 * 64 ≤ (i 1).val ∧ (i 1).val < win2_5.index _ 1 * 64 + 64; rw [e1]; omega

/-- THE RESULT ARRAY after the launch: the layer function of the arrays the launch found. -/
theorem final (c : Dev nD) :
    (dat2 V c).arrAt 5 cfg2.N = Spec.conv (V c main_v27 : S50000x64.Idx → EReal) (V c main_v37 : S50000x64.Idx → EReal)
      (V c main_arg9 : S64x64.Idx → EReal) (fun q => (V c main_v38 : S1x64.Idx → EReal) (ix2 (0 : Fin 1) q)) (V c main_arg11 : S64x64.Idx → EReal) :=
  (dat2 V c).arrAt_eq_of_cover 5 (G V c) (fun t _ => flushed_eq V c t) cover

end Cert.KernelIdeal.KReg2

end
-- ==== Proof.KReg3.lean ====
/-
  The classifier head's launch, read as one function of the arrays it finds.

  The launch has one grid point, and every window is its whole array. The kernel forms the scores
  `s = max (g · W1ᵀ + b1) 0 · W2ᵀ + b2`, takes each row's largest score `μ p` (folded from the word of `-∞`), and stores
  `(s p q − μ p) − log ∑ᵣ exp (s p r − μ p)`. Read at row `p` and class `q` — the two products as sums over the contracted
  feature, the transposed weights read back at swapped coordinates, each row reduction kept as a column and spread back
  over its row — this is `Spec.logSoftmaxAt` of `Spec.scoreAt`. The one point's block is the whole result array, so the
  array ends as `Spec.head` of the arrays the launch finds.
-/
import proofs.«114097_j85770496901295_1_alg».proof.Proof.Gen.KernelIdeal.Frame
import proofs.«114097_j85770496901295_1_alg».proof.Proof.Spec
import proofs.«114097_j85770496901295_1_alg».proof.Proof.LibDot
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KReg3

open Cert.KernelIdeal Cert.KernelIdeal.Gen Idealize.ShloMosaic Idealize.ShloMosaic.TcCoe Idealize.ShloMosaic.ValueIdx
open Idealize.ShloMosaic.Pipeline (Dat Cfg Window)

/-- A vector of `a` entries kept as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over `b` columns reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scores as the kernel forms them. -/
def scoreV (g : Vec Ideal S512x64 .f32) (w1 : Vec Ideal S64x64 .f32) (b1 : Vec Ideal S1x64 .f32) (w2 : Vec Ideal S32x64 .f32)
    (b2 : Vec Ideal S1x32 .f32) : FVec Ideal S512x32 .f32 :=
  have x : FVec Ideal S512x64 .f32 := shapeCast S512x64 g shapeCasts_S512x64_S512x64
  have c1 : FVec Ideal S1x64 .f32 := shapeCast S1x64 b1 shapeCasts_S1x64_S1x64
  have c2 : FVec Ideal S1x32 .f32 := shapeCast S1x32 b2 shapeCasts_S1x32_S1x32
  have w1t : FVec Ideal S64x64 .f32 := transpose S64x64 [1, 0] w1 transposes_S64x64_p1_0_S64x64
  have z1 : FVec Ideal S512x64 .f32 := constant S512x64 .f32 0x00000000#32
  have m1 : FVec Ideal S512x64 .f32 := matmul dot_S512x64_S64x64_S512x64_1_0_0_1_n_n none x w1t z1
  have r1 : FVec Ideal S512x64 .f32 := broadcastTo S512x64 c1 broadcasts_S1x64_S512x64
  have a1 : FVec Ideal S512x64 .f32 := addf m1 r1
  have zs : Ideal .f32 := Scalar.ofBits .f32 0x00000000#32
  have z : FVec Ideal S512x64 .f32 := broadcast S512x64 zs
  have hid : FVec Ideal S512x64 .f32 := maximumf a1 z
  have w2t : FVec Ideal S64x32 .f32 := transpose S64x32 [1, 0] w2 transposes_S32x64_p1_0_S64x32
  have z2 : FVec Ideal S512x32 .f32 := constant S512x32 .f32 0x00000000#32
  have m2 : FVec Ideal S512x32 .f32 := matmul dot_S512x64_S64x32_S512x32_1_0_0_1_n_n none hid w2t z2
  have r2 : FVec Ideal S512x32 .f32 := broadcastTo S512x32 c2 broadcasts_S1x32_S512x32
  addf m2 r2

/-- A row's largest entry, spread back over the row. -/
def rowMaxV (s : FVec Ideal S512x32 .f32) : FVec Ideal S512x32 .f32 :=
  have m : FVec Ideal S512 .f32 := multiReduction .maximumf [1] S512 s 0xFF800000#32 reduces_S512x32_S512 (.inl rfl) rfl
  have mc : FVec Ideal S512x1 .f32 := shapeCast S512x1 m shapeCasts_S512_S512x1
  broadcastTo S512x32 mc broadcasts_S512x1_S512x32

/-- The logarithm of a row's sum, spread back over the row. -/
def logSumV (e : FVec Ideal S512x32 .f32) : FVec Ideal S512x32 .f32 :=
  have t : FVec Ideal S512 .f32 := multiReduction .add [1] S512 e 0x00000000#32 reduces_S512x32_S512 (.inl rfl) rfl
  have tc : FVec Ideal S512x1 .f32 := shapeCast S512x1 t shapeCasts_S512_S512x1
  have l : FVec Ideal S512x1 .f32 := log tc
  broadcastTo S512x32 l broadcasts_S512x1_S512x32

/-- The stored value is the shifted log-softmax of the scores. -/
theorem pay_eq (g : Vec Ideal S512x64 .f32) (w1 : Vec Ideal S64x64 .f32) (b1 : Vec Ideal S1x64 .f32) (w2 : Vec Ideal S32x64 .f32)
    (b2 : Vec Ideal S1x32 .f32) :
    k3_pay1 (F := Ideal) g w1 b1 w2 b2
      = subf (subf (scoreV g w1 b1 w2 b2) (rowMaxV (scoreV g w1 b1 w2 b2)))
          (logSumV (exp (subf (scoreV g w1 b1 w2 b2) (rowMaxV (scoreV g w1 b1 w2 b2))))) := rfl

/-- The index of row `p` with column `r` put back is `(p, r)`. -/
theorem lift_row (p : Fin 512) (r : Fin 32) : reduces_S512x32_S512.lift (ix1 p) r = ix2 p r :=
  funext fun a => Fin.ext (by
    match a with
    | ⟨0, _⟩ => rfl
    | ⟨1, _⟩ => rfl)

/-- The spread row maximum at `(p, q)` is the fold of `max` over row `p`. -/
theorem rowMaxV_apply (s : FVec Ideal S512x32 .f32) (p : Fin 512) (q : Fin 32) :
    rowMaxV s (ix2 p q) = Spec.rowMax (Ideal.ofBits .f32 0xFF800000#32) (fun r => s (ix2 p r)) := by
  unfold rowMaxV
  rw [broadcastTo_a1_ab_apply, shapeCast_a_a1_apply]
  refine (Ideal.multiReduction_maximumf_single s 0xFF800000#32 reduces_S512x32_S512 (.inl rfl) rfl (ix1 p)).trans ?_
  show Finset.fold max (Ideal.ofBits .f32 0xFF800000#32) (fun r : Fin 32 => s (reduces_S512x32_S512.lift (ix1 p) r)) Finset.univ = _
  simp only [lift_row]
  rfl

/-- The spread logarithm of the row sum at `(p, q)` is the logarithm of the sum over row `p`. -/
theorem logSumV_apply (e : FVec Ideal S512x32 .f32) (p : Fin 512) (q : Fin 32) :
    logSumV e (ix2 p q) = Ideal.log (∑ r : Fin 32, e (ix2 p r)) := by
  unfold logSumV
  rw [broadcastTo_a1_ab_apply]
  show Ideal.log (shapeCast S512x1 _ shapeCasts_S512_S512x1 (ix2 p (0 : Fin 1))) = _
  rw [shapeCast_a_a1_apply]
  refine congrArg Ideal.log ?_
  refine (Ideal.multiReduction_add_single e 0x00000000#32 reduces_S512x32_S512 (.inl rfl) rfl (ix1 p)).trans ?_
  exact Finset.sum_congr rfl fun r _ => congrArg e (lift_row p r)

/-- The first dense layer's product at `(p, j)`: the transposed weights read back at swapped coordinates. -/
theorem dense1_apply (g : FVec Ideal S512x64 .f32) (w1 : FVec Ideal S64x64 .f32) (p : Fin 512) (j : Fin 64) :
    matmul dot_S512x64_S64x64_S512x64_1_0_0_1_n_n none g (transpose S64x64 [1, 0] w1 transposes_S64x64_p1_0_S64x64)
        (constant S512x64 .f32 0x00000000#32) (ix2 p j)
      = ∑ k : Fin 64, g (ix2 p k) * w1 (ix2 j k) := by
  rw [LibDot.matmul_zero_apply _ rfl rfl rfl rfl rfl rfl]
  have ht1 (k : Fin 64) : transpose S64x64 [1, 0] w1 transposes_S64x64_p1_0_S64x64 (ix2 k j) = w1 (ix2 j k) :=
    transpose_ix2_apply w1 _ k j
  simp only [ht1]

/-- The scores at `(p, q)`. -/
theorem score_apply (g : Vec Ideal S512x64 .f32) (w1 : Vec Ideal S64x64 .f32) (b1 : Vec Ideal S1x64 .f32) (w2 : Vec Ideal S32x64 .f32)
    (b2 : Vec Ideal S1x32 .f32) (p : Fin 512) (q : Fin 32) :
    scoreV g w1 b1 w2 b2 (ix2 p q)
      = Spec.scoreAt g w1 (fun j => b1 (ix2 (0 : Fin 1) j)) w2 (fun r => b2 (ix2 (0 : Fin 1) r)) p q := by
  unfold scoreV Spec.scoreAt Spec.hidAt
  rw [shapeCast_self, shapeCast_self, shapeCast_self]
  rw [addf_apply, LibDot.matmul_zero_apply _ rfl rfl rfl rfl rfl rfl, broadcastTo_1b_ab_apply]
  have ht2 (k : Fin 64) : transpose S64x32 [1, 0] w2 transposes_S32x64_p1_0_S64x32 (ix2 k q) = w2 (ix2 q k) :=
    transpose_ix2_apply w2 _ k q
  simp only [ht2, maximumf_apply, addf_apply, dense1_apply, broadcastTo_1b_ab_apply, broadcast_apply]
  have h0 : (Scalar.ofBits .f32 0x00000000#32 : Ideal .f32) = 0 := Ideal.ofBits_zero_f32
  rw [h0]
  refine congrArg (fun t => t + b2 (ix2 (0 : Fin 1) q)) (Finset.sum_congr rfl fun j _ => ?_)
  exact congrArg (fun t => max (t + b1 (ix2 (0 : Fin 1) j)) 0 * w2 (ix2 q j)) (dense1_apply g w1 p j)

/-- THE STORED VALUE AT `(p, q)`: the shifted log-softmax of row `p` of the scores. -/
theorem pay3_apply (g : Vec Ideal S512x64 .f32) (w1 : Vec Ideal S64x64 .f32) (b1 : Vec Ideal S1x64 .f32) (w2 : Vec Ideal S32x64 .f32)
    (b2 : Vec Ideal S1x32 .f32) (p : Fin 512) (q : Fin 32) :
    k3_pay1 (F := Ideal) g w1 b1 w2 b2 (ix2 p q)
      = Spec.logSoftmaxAt (Ideal.ofBits .f32 0xFF800000#32)
          (Spec.scoreAt g w1 (fun j => b1 (ix2 (0 : Fin 1) j)) w2 (fun r => b2 (ix2 (0 : Fin 1) r)) p) q := by
  rw [pay_eq]
  rw [subf_apply, subf_apply, logSumV_apply, rowMaxV_apply]
  have hs : (fun r : Fin 32 => scoreV g w1 b1 w2 b2 (ix2 p r))
      = Spec.scoreAt g w1 (fun j => b1 (ix2 (0 : Fin 1) j)) w2 (fun r => b2 (ix2 (0 : Fin 1) r)) p :=
    funext fun r => score_apply g w1 b1 w2 b2 p r
  have he (r : Fin 32) : exp (subf (scoreV g w1 b1 w2 b2) (rowMaxV (scoreV g w1 b1 w2 b2))) (ix2 p r)
      = Ideal.exp (scoreV g w1 b1 w2 b2 (ix2 p r) - rowMaxV (scoreV g w1 b1 w2 b2) (ix2 p r)) := rfl
  simp only [he, rowMaxV_apply, hs, score_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The head function of the arrays the launch finds. -/
def G (c : Dev nD) : Spec.Arr2 512 32 :=
  Spec.head (Ideal.ofBits .f32 0xFF800000#32) (V c main_v42 : S512x64.Idx → EReal) (V c main_arg12 : S64x64.Idx → EReal)
    (fun j => (V c main_v43 : S1x64.Idx → EReal) (ix2 (0 : Fin 1) j)) (V c main_arg14 : S32x64.Idx → EReal)
    (fun r => (V c main_v44 : S1x32.Idx → EReal) (ix2 (0 : Fin 1) r))

/-- The block indices over the grid: one point, every window at block 0. -/
theorem idx : ∀ t : Fin cfg3.N,
    win3_0.index t 0 = 0 ∧ win3_0.index t 1 = 0 ∧ win3_1.index t 0 = 0 ∧ win3_1.index t 1 = 0
    ∧ win3_2.index t 0 = 0 ∧ win3_2.index t 1 = 0 ∧ win3_3.index t 0 = 0 ∧ win3_3.index t 1 = 0
    ∧ win3_4.index t 0 = 0 ∧ win3_4.index t 1 = 0 ∧ win3_5.index t 0 = 0 ∧ win3_5.index t 1 = 0 :=
  (by decide +kernel : ∀ t : Fin grid3.N, _)

/-- The pooled-feature block is the whole array. -/
theorem blk0 (c : Dev nD) (t : Fin cfg3.N) (x : S512x64.Idx) :
    (iblk3 V c 0 t : Vec Ideal S512x64 .f32) x = (V c main_v42 : S512x64.Idx → EReal) x := by
  obtain ⟨e0, e1, -⟩ := idx t
  unfold iblk3
  rw [View.read_apply]
  show V c main_v42 _ = V c main_v42 _
  congr 1
  funext a
  apply Fin.ext
  match a with
  | ⟨0, _⟩ => show win3_0.index t 0 * 512 + 1 * (x 0).val = (x 0).val; rw [e0]; omega
  | ⟨1, _⟩ => show win3_0.index t 1 * 64 + 1 * (x 1).val = (x 1).val; rw [e1]; omega

/-- The first weight block is the whole matrix. -/
theorem blk1 (c : Dev nD) (t : Fin cfg3.N) (x : S64x64.Idx) :
    (iblk3 V c 1 t : Vec Ideal S64x64 .f32) x = (V c main_arg12 : S64x64.Idx → EReal) x := by
  obtain ⟨-, -, e0, e1, -⟩ := idx t
  unfold iblk3
  rw [View.read_apply]
  show V c main_arg12 _ = V c main_arg12 _
  congr 1
  funext a
  apply Fin.ext
  match a with
  | ⟨0, _⟩ => show win3_1.index t 0 * 64 + 1 * (x 0).val = (x 0).val; rw [e0]; omega
  | ⟨1, _⟩ => show win3_1.index t 1 * 64 + 1 * (x 1).val = (x 1).val; rw [e1]; omega

/-- The first bias block is the whole row. -/
theorem blk2 (c : Dev nD) (t : Fin cfg3.N) (x : S1x64.Idx) :
    (iblk3 V c 2 t : Vec Ideal S1x64 .f32) x = (V c main_v43 : S1x64.Idx → EReal) x := by
  obtain ⟨-, -, -, -, e0, e1, -⟩ := idx t
  unfold iblk3
  rw [View.read_apply]
  show V c main_v43 _ = V c main_v43 _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The second weight block is the whole matrix. -/
theorem blk3 (c : Dev nD) (t : Fin cfg3.N) (x : S32x64.Idx) :
    (iblk3 V c 3 t : Vec Ideal S32x64 .f32) x = (V c main_arg14 : S32x64.Idx → EReal) x := by
  obtain ⟨-, -, -, -, -, -, e0, e1, -⟩ := idx t
  unfold iblk3
  rw [View.read_apply]
  show V c main_arg14 _ = V c main_arg14 _
  congr 1
  funext a
  apply Fin.ext
  match a with
  | ⟨0, _⟩ => show win3_3.index t 0 * 32 + 1 * (x 0).val = (x 0).val; rw [e0]; omega
  | ⟨1, _⟩ => show win3_3.index t 1 * 64 + 1 * (x 1).val = (x 1).val; rw [e1]; omega

/-- The second bias block is the whole row. -/
theorem blk4 (c : Dev nD) (t : Fin cfg3.N) (x : S1x32.Idx) :
    (iblk3 V c 4 t : Vec Ideal S1x32 .f32) x = (V c main_v44 : S1x32.Idx → EReal) x := by
  obtain ⟨-, -, -, -, -, -, -, -, e0, e1, -⟩ := idx t
  unfold iblk3
  rw [View.read_apply]
  show V c main_v44 _ = V c main_v44 _
  congr 1
  funext a
  apply Fin.ext
  match a with
  | ⟨0, _⟩ => show win3_4.index t 0 * 1 + 1 * (x 0).val = (x 0).val; rw [e0]; omega
  | ⟨1, _⟩ => show win3_4.index t 1 * 32 + 1 * (x 1).val = (x 1).val; rw [e1]; omega

/-- WHAT THE POINT WRITES BACK is its block of the head function of the arrays the launch finds. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S512x64) hz, View.ld_unit_zero (S := S64x64) hz, View.ld_unit_zero (S := S1x64) hz,
    View.ld_unit_zero (S := S32x64) hz, View.ld_unit_zero (S := S1x32) hz]
  funext j
  obtain ⟨p, q, rfl⟩ : ∃ (p : Fin 512) (q : Fin 32), j = ix2 p q := ⟨j 0, j 1, eq_ix2 j⟩
  refine (pay3_apply (iblk3 V c 0 t) (iblk3 V c 1 t) (iblk3 V c 2 t) (iblk3 V c 3 t) (iblk3 V c 4 t) p q).trans ?_
  obtain ⟨-, -, -, -, -, -, -, -, -, -, e0, e1⟩ := idx t
  have hemb : ((cfg3.win 5).blk t).view.emb (ix2 p q) = (ix2 p q : S512x32.Idx) := by
    funext a
    apply Fin.ext
    match a with
    | ⟨0, _⟩ => show win3_5.index t 0 * 512 + 1 * p.val = p.val; rw [e0]; omega
    | ⟨1, _⟩ => show win3_5.index t 1 * 32 + 1 * q.val = q.val; rw [e1]; omega
  have h0 : (iblk3 V c 0 t : Vec Ideal S512x64 .f32) = (V c main_v42 : S512x64.Idx → EReal) := funext (blk0 V c t)
  have h1 : (iblk3 V c 1 t : Vec Ideal S64x64 .f32) = (V c main_arg12 : S64x64.Idx → EReal) := funext (blk1 V c t)
  have h2 : (iblk3 V c 2 t : Vec Ideal S1x64 .f32) = (V c main_v43 : S1x64.Idx → EReal) := funext (blk2 V c t)
  have h3 : (iblk3 V c 3 t : Vec Ideal S32x64 .f32) = (V c main_arg14 : S32x64.Idx → EReal) := funext (blk3 V c t)
  have h4 : (iblk3 V c 4 t : Vec Ideal S1x32 .f32) = (V c main_v44 : S1x32.Idx → EReal) := funext (blk4 V c t)
  rw [View.read_apply]
  refine Eq.trans ?_ (congrArg (G V c) hemb).symm
  rw [h0, h1, h2, h3, h4]
  rfl

/-- THE RESULT ARRAY after the launch: the head function of the arrays the launch finds; the one point's block is the
    whole array, so it covers every index. -/
theorem final (c : Dev nD) :
    (dat3 V c).arrAt 5 cfg3.N = Spec.head (Ideal.ofBits .f32 0xFF800000#32) (V c main_v42 : S512x64.Idx → EReal) (V c main_arg12 : S64x64.Idx → EReal)
      (fun j => (V c main_v43 : S1x64.Idx → EReal) (ix2 (0 : Fin 1) j)) (V c main_arg14 : S32x64.Idx → EReal)
      (fun r => (V c main_v44 : S1x32.Idx → EReal) (ix2 (0 : Fin 1) r)) :=
  (dat3 V c).arrAt_eq_of_cover 5 (G V c) (fun t _ => flushed_eq V c t) fun i =>
    ⟨t3_0, flush3_5 t3_0, by
      show i ∈ ((View.whole main_v45).slice (win3_5.rect t3_0)).set
      rw [View.set_slice_whole, Rect.mem_set_unit]
      intro a
      have h0 : (i 0 : Nat) < 512 := (i 0).isLt
      have h1 : (i 1 : Nat) < 32 := (i 1).isLt
      match a with
      | ⟨0, _⟩ =>
        show win3_5.index t3_0 0 * win3_5.size 0 ≤ (i 0 : Nat) ∧ (i 0 : Nat) < win3_5.index t3_0 0 * win3_5.size 0 + win3_5.xsize (grid3.coords t3_0) 0
        rw [show win3_5.index t3_0 0 * win3_5.size 0 = 0 from by decide +kernel, show win3_5.xsize (grid3.coords t3_0) 0 = 512 from by decide +kernel]
        omega
      | ⟨1, _⟩ =>
        show win3_5.index t3_0 1 * win3_5.size 1 ≤ (i 1 : Nat) ∧ (i 1 : Nat) < win3_5.index t3_0 1 * win3_5.size 1 + win3_5.xsize (grid3.coords t3_0) 1
        rw [show win3_5.index t3_0 1 * win3_5.size 1 = 0 from by decide +kernel, show win3_5.xsize (grid3.coords t3_0) 1 = 32 from by decide +kernel]
        omega⟩

end Cert.KernelIdeal.KReg3

end
-- ==== Proof.KThread.lean ====
/-
  The kernel program's result as one function of its sixteen arguments.

  Between the launches the program gathers, for every edge, the feature row of the edge's source node and adds it into
  the row of the edge's target node (the neighbourhood sums), and before the last launch it adds every node's row into
  the row of the node's graph (the pooling). Each launch leaves its result array at the layer function of the arrays
  it finds; read back through the host operations, the result of the program is the three layers, the pooling and
  the classifier head composed.
-/
import proofs.«114097_j85770496901295_1_alg».proof.Proof.Gen.KernelIdeal.Frame
import proofs.«114097_j85770496901295_1_alg».proof.Proof.Spec
import Idealize.ShloMosaic.Lib.StableHlo.Run
import Idealize.ShloMosaic.Lib.ValueLayout

set_option maxRecDepth 16384

noncomputable section

namespace Cert.KernelIdeal.KThread

open Cert.KernelIdeal Cert.KernelIdeal.Gen Idealize.ShloMosaic Idealize.ShloMosaic.TcCoe Idealize.ShloMosaic.ValueIdx
open Idealize.ShloMosaic.Pipeline (Dat Cfg Window)

/-- The word the row maximum is folded from: the pattern of `-∞`. -/
abbrev negInf : EReal := Ideal.ofBits .f32 0xFF800000#32

/-- The source node of each edge, a negative index counted from the end. -/
def srcIdx (e : (⟨S2x600000, .i32⟩ : BufTy).Contents (Elt Ideal)) : (⟨S600000x1, .i32⟩ : BufTy).Contents (Elt Ideal) :=
  broadcastInDim S600000x1 ![0] bcast_S600000_S600000x1_0
    (select
      (cmpi .slt (shapeCast _ (extractStridedSlice S1x600000 ![0, 0] e slices_S2x600000_S1x600000_0_0) shapeCasts_S1x600000_S600000)
        (broadcastInDim S600000 ![] bcast_S_S600000 (constantI S_ 32 0#32)))
      (addi (shapeCast _ (extractStridedSlice S1x600000 ![0, 0] e slices_S2x600000_S1x600000_0_0) shapeCasts_S1x600000_S600000)
        (broadcastInDim S600000 ![] bcast_S_S600000 (constantI S_ 32 50000#32)))
      (shapeCast _ (extractStridedSlice S1x600000 ![0, 0] e slices_S2x600000_S1x600000_0_0) shapeCasts_S1x600000_S600000))

/-- The target node of each edge. -/
def dstIdx (e : (⟨S2x600000, .i32⟩ : BufTy).Contents (Elt Ideal)) : (⟨S600000x1, .i32⟩ : BufTy).Contents (Elt Ideal) :=
  broadcastInDim S600000x1 ![0] bcast_S600000_S600000x1_0
    (shapeCast _ (extractStridedSlice S1x600000 ![1, 0] e slices_S2x600000_S1x600000_1_0) shapeCasts_S1x600000_S600000)

/-- Neighbourhood sums of 128-wide features. -/
def agg128 (e : (⟨S2x600000, .i32⟩ : BufTy).Contents (Elt Ideal)) (X : (⟨S50000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32)) (dstIdx e)
    (Host.gather gather_S50000x128_S600000x1_S600000x128_1_0_n_n_0_1_1128 X (srcIdx e))

/-- Neighbourhood sums of 64-wide features. -/
def agg64 (e : (⟨S2x600000, .i32⟩ : BufTy).Contents (Elt Ideal)) (X : (⟨S50000x64, .f32⟩ : BufTy).Contents (Elt Ideal)) :
    (⟨S50000x64, .f32⟩ : BufTy).Contents (Elt Ideal) :=
  Host.scatterAdd (F := Ideal) scatter_S50000x64_S600000x1_S600000x64_1_0_0_1
    (broadcastInDim S50000x64 ![] bcast_S_S50000x64 (constant (F := Ideal) S_ .f32 0x00000000#32)) (dstIdx e)
    (Host.gather gather_S50000x64_S600000x1_S600000x64_1_0_n_n_0_1_164 X (srcIdx e))

/-- The sum of the node rows of each graph. -/
def pool (g : (⟨S50000, .i32⟩ : BufTy).Contents (Elt Ideal)) (H : (⟨S50000x64, .f32⟩ : BufTy).Contents (Elt Ideal)) :
    (⟨S512x64, .f32⟩ : BufTy).Contents (Elt Ideal) :=
  Host.scatterAdd (F := Ideal) scatter_S512x64_S50000x1_S50000x64_1_0_0_1
    (broadcastInDim S512x64 ![] bcast_S_S512x64 (constant (F := Ideal) S_ .f32 0x00000000#32))
    (broadcastInDim S50000x1 ![0] bcast_S50000_S50000x1_0 g) H

/-- The network: three layers over the neighbourhood sums, the pooling, the head. -/
def out (a0 : (⟨S50000x128, .f32⟩ : BufTy).Contents (Elt Ideal)) (a1 : (⟨S2x600000, .i32⟩ : BufTy).Contents (Elt Ideal))
    (a2 : (⟨S50000, .i32⟩ : BufTy).Contents (Elt Ideal))
    (a3 : (⟨S128x128, .f32⟩ : BufTy).Contents (Elt Ideal)) (a4 : (⟨S128, .f32⟩ : BufTy).Contents (Elt Ideal)) (a5 : (⟨S128x128, .f32⟩ : BufTy).Contents (Elt Ideal))
    (a6 : (⟨S64x128, .f32⟩ : BufTy).Contents (Elt Ideal)) (a7 : (⟨S64, .f32⟩ : BufTy).Contents (Elt Ideal)) (a8 : (⟨S64x128, .f32⟩ : BufTy).Contents (Elt Ideal))
    (a9 : (⟨S64x64, .f32⟩ : BufTy).Contents (Elt Ideal)) (a10 : (⟨S64, .f32⟩ : BufTy).Contents (Elt Ideal)) (a11 : (⟨S64x64, .f32⟩ : BufTy).Contents (Elt Ideal))
    (a12 : (⟨S64x64, .f32⟩ : BufTy).Contents (Elt Ideal)) (a13 : (⟨S64, .f32⟩ : BufTy).Contents (Elt Ideal))
    (a14 : (⟨S32x64, .f32⟩ : BufTy).Contents (Elt Ideal)) (a15 : (⟨S32, .f32⟩ : BufTy).Contents (Elt Ideal)) : Spec.Arr2 512 32 :=
  Spec.head negInf
    (pool a2
      (Spec.conv
        (Spec.convRelu (Spec.convRelu a0 (agg128 a1 a0) a3 (fun q => a4 (ix1 q)) a5)
          (agg128 a1 (Spec.convRelu a0 (agg128 a1 a0) a3 (fun q => a4 (ix1 q)) a5)) a6 (fun q => a7 (ix1 q)) a8)
        (agg64 a1
          (Spec.convRelu (Spec.convRelu a0 (agg128 a1 a0) a3 (fun q => a4 (ix1 q)) a5)
            (agg128 a1 (Spec.convRelu a0 (agg128 a1 a0) a3 (fun q => a4 (ix1 q)) a5)) a6 (fun q => a7 (ix1 q)) a8))
        a9 (fun q => a10 (ix1 q)) a11))
    a12 (fun j => a13 (ix1 j)) a14 (fun r => a15 (ix1 r))

variable (m : (ℓ : Loc nD τ sig) → Buf (Elt Ideal) ℓ) (ρ : Dev nD → PrngReg)

/-- What each launch leaves, as hypotheses: the result array of launch `k` is the layer function of the arrays the launch
    finds, whatever those are. -/
structure Finals : Prop where
  f0 : ∀ (V : (c : Dev nD) → (b : Ref sig .tc) → Buf (Elt Ideal) ((c : Thread nD τ).loc b)) (c : Dev nD),
    (dat0 V c).arrAt 5 cfg0.N = Spec.convRelu (V c main_arg0 : S50000x128.Idx → EReal) (V c main_v13 : S50000x128.Idx → EReal)
      (V c main_arg3 : S128x128.Idx → EReal) (fun q => (V c main_v14 : S1x128.Idx → EReal) (ix2 (0 : Fin 1) q)) (V c main_arg5 : S128x128.Idx → EReal)
  f1 : ∀ (V : (c : Dev nD) → (b : Ref sig .tc) → Buf (Elt Ideal) ((c : Thread nD τ).loc b)) (c : Dev nD),
    (dat1 V c).arrAt 5 cfg1.N = Spec.convRelu (V c main_v15 : S50000x128.Idx → EReal) (V c main_v25 : S50000x128.Idx → EReal)
      (V c main_arg6 : S64x128.Idx → EReal) (fun q => (V c main_v26 : S1x64.Idx → EReal) (ix2 (0 : Fin 1) q)) (V c main_arg8 : S64x128.Idx → EReal)
  f2 : ∀ (V : (c : Dev nD) → (b : Ref sig .tc) → Buf (Elt Ideal) ((c : Thread nD τ).loc b)) (c : Dev nD),
    (dat2 V c).arrAt 5 cfg2.N = Spec.conv (V c main_v27 : S50000x64.Idx → EReal) (V c main_v37 : S50000x64.Idx → EReal)
      (V c main_arg9 : S64x64.Idx → EReal) (fun q => (V c main_v38 : S1x64.Idx → EReal) (ix2 (0 : Fin 1) q)) (V c main_arg11 : S64x64.Idx → EReal)
  f3 : ∀ (V : (c : Dev nD) → (b : Ref sig .tc) → Buf (Elt Ideal) ((c : Thread nD τ).loc b)) (c : Dev nD),
    (dat3 V c).arrAt 5 cfg3.N = Spec.head negInf (V c main_v42 : S512x64.Idx → EReal) (V c main_arg12 : S64x64.Idx → EReal)
      (fun j => (V c main_v43 : S1x64.Idx → EReal) (ix2 (0 : Fin 1) j)) (V c main_arg14 : S32x64.Idx → EReal)
      (fun r => (V c main_v44 : S1x32.Idx → EReal) (ix2 (0 : Fin 1) r))

/-! ## What the stretches of host operations write, and what they keep -/

/-- The buffers the first stretch writes. -/
abbrev wr0 : List (Ref sig .tc) :=
  [main_v0, main_v1, main_v2, main_v3, main_c, main_v4, main_v5, main_c_0, main_v6, main_v7, main_v8, main_v9, main_v10,
    main_cst, main_v11, main_v12, main_v13, main_v14]
/-- The buffers the second stretch writes. -/
abbrev wr1 : List (Ref sig .tc) :=
  [main_c_1, main_v16, main_v17, main_c_2, main_v18, main_v19, main_v20, main_v21, main_v22, main_cst_3, main_v23, main_v24,
    main_v25, main_v26]
/-- The buffers the third stretch writes. -/
abbrev wr2 : List (Ref sig .tc) :=
  [main_c_4, main_v28, main_v29, main_c_5, main_v30, main_v31, main_v32, main_v33, main_v34, main_cst_6, main_v35, main_v36,
    main_v37, main_v38]
/-- The buffers the fourth stretch writes. -/
abbrev wr3 : List (Ref sig .tc) := [main_cst_7, main_v40, main_v41, main_v42, main_v43, main_v44]

theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr3_sub : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer a stretch does not write holds after it what it held before. -/
theorem step1 (c : Dev nD) (r : Ref sig .tc) (h : r ∉ wr0) : W1 m ρ c (Proc.devRef .tc r) = m ((c : Thread nD τ).loc r) :=
  (StableHlo.after_of_writes_sub hostOps0 _ wr0_sub h).trans rfl
theorem step3 (c : Dev nD) (r : Ref sig .tc) (h : r ∉ wr1) : W3 m ρ c (Proc.devRef .tc r) = W2 m ρ c (Proc.devRef .tc r) :=
  StableHlo.after_of_writes_sub hostOps1 _ wr1_sub h
theorem step5 (c : Dev nD) (r : Ref sig .tc) (h : r ∉ wr2) : W5 m ρ c (Proc.devRef .tc r) = W4 m ρ c (Proc.devRef .tc r) :=
  StableHlo.after_of_writes_sub hostOps2 _ wr2_sub h
theorem step7 (c : Dev nD) (r : Ref sig .tc) (h : r ∉ wr3) : W7 m ρ c (Proc.devRef .tc r) = W6 m ρ c (Proc.devRef .tc r) :=
  StableHlo.after_of_writes_sub hostOps3 _ wr3_sub h

/-! ## A buffer nothing has written yet holds the launch memory's contents -/

theorem at2 (c : Dev nD) (r : Ref sig .tc) (h0 : r ∉ wr0) (k0 : ∀ w, Pipeline.arrRef spec0 w ≠ r) :
    W2 m ρ c (Proc.devRef .tc r) = m ((c : Thread nD τ).loc r) :=
  (W2_of_ne m ρ c r k0).trans (step1 m ρ c r h0)
theorem at3 (c : Dev nD) (r : Ref sig .tc) (h0 : r ∉ wr0) (k0 : ∀ w, Pipeline.arrRef spec0 w ≠ r) (h1 : r ∉ wr1) :
    W3 m ρ c (Proc.devRef .tc r) = m ((c : Thread nD τ).loc r) :=
  (step3 m ρ c r h1).trans (at2 m ρ c r h0 k0)
theorem at4 (c : Dev nD) (r : Ref sig .tc) (h0 : r ∉ wr0) (k0 : ∀ w, Pipeline.arrRef spec0 w ≠ r) (h1 : r ∉ wr1)
    (k1 : ∀ w, Pipeline.arrRef spec1 w ≠ r) : W4 m ρ c (Proc.devRef .tc r) = m ((c : Thread nD τ).loc r) :=
  (W4_of_ne m ρ c r k1).trans (at3 m ρ c r h0 k0 h1)
theorem at5 (c : Dev nD) (r : Ref sig .tc) (h0 : r ∉ wr0) (k0 : ∀ w, Pipeline.arrRef spec0 w ≠ r) (h1 : r ∉ wr1)
    (k1 : ∀ w, Pipeline.arrRef spec1 w ≠ r) (h2 : r ∉ wr2) : W5 m ρ c (Proc.devRef .tc r) = m ((c : Thread nD τ).loc r) :=
  (step5 m ρ c r h2).trans (at4 m ρ c r h0 k0 h1 k1)
theorem at6 (c : Dev nD) (r : Ref sig .tc) (h0 : r ∉ wr0) (k0 : ∀ w, Pipeline.arrRef spec0 w ≠ r) (h1 : r ∉ wr1)
    (k1 : ∀ w, Pipeline.arrRef spec1 w ≠ r) (h2 : r ∉ wr2) (k2 : ∀ w, Pipeline.arrRef spec2 w ≠ r) :
    W6 m ρ c (Proc.devRef .tc r) = m ((c : Thread nD τ).loc r) :=
  (W6_of_ne m ρ c r k2).trans (at5 m ρ c r h0 k0 h1 k1 h2)
theorem at7 (c : Dev nD) (r : Ref sig .tc) (h0 : r ∉ wr0) (k0 : ∀ w, Pipeline.arrRef spec0 w ≠ r) (h1 : r ∉ wr1)
    (k1 : ∀ w, Pipeline.arrRef spec1 w ≠ r) (h2 : r ∉ wr2) (k2 : ∀ w, Pipeline.arrRef spec2 w ≠ r) (h3 : r ∉ wr3) :
    W7 m ρ c (Proc.devRef .tc r) = m ((c : Thread nD τ).loc r) :=
  (step7 m ρ c r h3).trans (at6 m ρ c r h0 k0 h1 k1 h2 k2)

/-! ## The two rows of the edge array, reshaped once by the first stretch and read by the next two -/

/-- The row of sources. -/
abbrev srcRow (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000
/-- The row of targets. -/
abbrev dstRow (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000

theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl
theorem W2_v1 (c : Dev nD) : W2 m ρ c (Proc.devRef .tc main_v1) = srcRow (m ((c : Thread nD τ).loc main_arg1)) :=
  (W2_of_ne m ρ c main_v1 (by decide)).trans (W1_v1 m ρ c)
theorem W2_v3 (c : Dev nD) : W2 m ρ c (Proc.devRef .tc main_v3) = dstRow (m ((c : Thread nD τ).loc main_arg1)) :=
  (W2_of_ne m ρ c main_v3 (by decide)).trans (W1_v3 m ρ c)
theorem W4_v1 (c : Dev nD) : W4 m ρ c (Proc.devRef .tc main_v1) = srcRow (m ((c : Thread nD τ).loc main_arg1)) :=
  (W4_of_ne m ρ c main_v1 (by decide)).trans ((step3 m ρ c main_v1 (by decide)).trans (W2_v1 m ρ c))
theorem W4_v3 (c : Dev nD) : W4 m ρ c (Proc.devRef .tc main_v3) = dstRow (m ((c : Thread nD τ).loc main_arg1)) :=
  (W4_of_ne m ρ c main_v3 (by decide)).trans ((step3 m ρ c main_v3 (by decide)).trans (W2_v3 m ρ c))

/-! ## The first launch -/

theorem W1_v13 (c : Dev nD) :
    (W1 m ρ c (Proc.devRef .tc main_v13) : S50000x128.Idx → EReal) = agg128 (m ((c : Thread nD τ).loc main_arg1)) (m ((c : Thread nD τ).loc main_arg0)) := by
  show StableHlo.after hostOps0 (W0 m ρ c) (Proc.devRef .tc main_v13) = _
  after_results
  rfl

theorem W1_v14 (c : Dev nD) :
    (fun q => (W1 m ρ c (Proc.devRef .tc main_v14) : S1x128.Idx → EReal) (ix2 (0 : Fin 1) q))
      = fun q => ((m ((c : Thread nD τ).loc main_arg4)) : S128.Idx → EReal) (ix1 q) := by
  have e : (W1 m ρ c (Proc.devRef .tc main_v14) : S1x128.Idx → EReal)
      = shapeCast S1x128 ((m ((c : Thread nD τ).loc main_arg4)) : S128.Idx → EReal) shapeCasts_S128_S1x128 := by
    show StableHlo.after hostOps0 (W0 m ρ c) (Proc.devRef .tc main_v14) = _
    after_results
    rfl
  funext q
  rw [e]
  exact shapeCast_a_1a_apply _ _ _ _

theorem W2_v15 (hf : Finals) (c : Dev nD) :
    (W2 m ρ c (Proc.devRef .tc main_v15) : S50000x128.Idx → EReal)
      = Spec.convRelu (m ((c : Thread nD τ).loc main_arg0)) (agg128 (m ((c : Thread nD τ).loc main_arg1)) (m ((c : Thread nD τ).loc main_arg0))) (m ((c : Thread nD τ).loc main_arg3)) (fun q => (m ((c : Thread nD τ).loc main_arg4)) (ix1 q)) (m ((c : Thread nD τ).loc main_arg5)) := by
  refine (W2_arr m ρ c 5).trans ((hf.f0 (V1 m ρ) c).trans ?_)
  show Spec.convRelu (W1 m ρ c (Proc.devRef .tc main_arg0) : S50000x128.Idx → EReal) (W1 m ρ c (Proc.devRef .tc main_v13) : S50000x128.Idx → EReal)
      (W1 m ρ c (Proc.devRef .tc main_arg3) : S128x128.Idx → EReal) (fun q => (W1 m ρ c (Proc.devRef .tc main_v14) : S1x128.Idx → EReal) (ix2 (0 : Fin 1) q))
      (W1 m ρ c (Proc.devRef .tc main_arg5) : S128x128.Idx → EReal) = _
  rw [W1_v14 m ρ c, W1_v13 m ρ c, step1 m ρ c main_arg0 (by decide), step1 m ρ c main_arg3 (by decide), step1 m ρ c main_arg5 (by decide)]

/-! ## The second launch -/

theorem W3_v25 (c : Dev nD) :
    (W3 m ρ c (Proc.devRef .tc main_v25) : S50000x128.Idx → EReal) = agg128 (m ((c : Thread nD τ).loc main_arg1)) (W2 m ρ c (Proc.devRef .tc main_v15)) := by
  show StableHlo.after hostOps1 (W2 m ρ c) (Proc.devRef .tc main_v25) = _
  after_results
  rw [W2_v1 m ρ c, W2_v3 m ρ c]
  rfl

theorem W3_v26 (c : Dev nD) :
    (fun q => (W3 m ρ c (Proc.devRef .tc main_v26) : S1x64.Idx → EReal) (ix2 (0 : Fin 1) q))
      = fun q => ((m ((c : Thread nD τ).loc main_arg7)) : S64.Idx → EReal) (ix1 q) := by
  have e : (W3 m ρ c (Proc.devRef .tc main_v26) : S1x64.Idx → EReal)
      = shapeCast S1x64 ((m ((c : Thread nD τ).loc main_arg7)) : S64.Idx → EReal) shapeCasts_S64_S1x64 := by
    show StableHlo.after hostOps1 (W2 m ρ c) (Proc.devRef .tc main_v26) = _
    after_results
    rw [at2 m ρ c main_arg7 (by decide) (by decide)]
    rfl
  funext q
  rw [e]
  exact shapeCast_a_1a_apply _ _ _ _

theorem W4_v27 (hf : Finals) (c : Dev nD) :
    (W4 m ρ c (Proc.devRef .tc main_v27) : S50000x64.Idx → EReal)
      = Spec.convRelu (W2 m ρ c (Proc.devRef .tc main_v15) : S50000x128.Idx → EReal) (agg128 (m ((c : Thread nD τ).loc main_arg1)) (W2 m ρ c (Proc.devRef .tc main_v15)))
          (m ((c : Thread nD τ).loc main_arg6)) (fun q => (m ((c : Thread nD τ).loc main_arg7)) (ix1 q)) (m ((c : Thread nD τ).loc main_arg8)) := by
  refine (W4_arr m ρ c 5).trans ((hf.f1 (V3 m ρ) c).trans ?_)
  show Spec.convRelu (W3 m ρ c (Proc.devRef .tc main_v15) : S50000x128.Idx → EReal) (W3 m ρ c (Proc.devRef .tc main_v25) : S50000x128.Idx → EReal)
      (W3 m ρ c (Proc.devRef .tc main_arg6) : S64x128.Idx → EReal) (fun q => (W3 m ρ c (Proc.devRef .tc main_v26) : S1x64.Idx → EReal) (ix2 (0 : Fin 1) q))
      (W3 m ρ c (Proc.devRef .tc main_arg8) : S64x128.Idx → EReal) = _
  rw [W3_v26 m ρ c, W3_v25 m ρ c, step3 m ρ c main_v15 (by decide), at3 m ρ c main_arg6 (by decide) (by decide) (by decide), at3 m ρ c main_arg8 (by decide) (by decide) (by decide)]

/-! ## The third launch -/

theorem W5_v37 (c : Dev nD) :
    (W5 m ρ c (Proc.devRef .tc main_v37) : S50000x64.Idx → EReal) = agg64 (m ((c : Thread nD τ).loc main_arg1)) (W4 m ρ c (Proc.devRef .tc main_v27)) := by
  show StableHlo.after hostOps2 (W4 m ρ c) (Proc.devRef .tc main_v37) = _
  after_results
  rw [W4_v1 m ρ c, W4_v3 m ρ c]
  rfl

theorem W5_v38 (c : Dev nD) :
    (fun q => (W5 m ρ c (Proc.devRef .tc main_v38) : S1x64.Idx → EReal) (ix2 (0 : Fin 1) q))
      = fun q => ((m ((c : Thread nD τ).loc main_arg10)) : S64.Idx → EReal) (ix1 q) := by
  have e : (W5 m ρ c (Proc.devRef .tc main_v38) : S1x64.Idx → EReal)
      = shapeCast S1x64 ((m ((c : Thread nD τ).loc main_arg10)) : S64.Idx → EReal) shapeCasts_S64_S1x64 := by
    show StableHlo.after hostOps2 (W4 m ρ c) (Proc.devRef .tc main_v38) = _
    after_results
    rw [at4 m ρ c main_arg10 (by decide) (by decide) (by decide) (by decide)]
    rfl
  funext q
  rw [e]
  exact shapeCast_a_1a_apply _ _ _ _

theorem W6_v39 (hf : Finals) (c : Dev nD) :
    (W6 m ρ c (Proc.devRef .tc main_v39) : S50000x64.Idx → EReal)
      = Spec.conv (W4 m ρ c (Proc.devRef .tc main_v27) : S50000x64.Idx → EReal) (agg64 (m ((c : Thread nD τ).loc main_arg1)) (W4 m ρ c (Proc.devRef .tc main_v27)))
          (m ((c : Thread nD τ).loc main_arg9)) (fun q => (m ((c : Thread nD τ).loc main_arg10)) (ix1 q)) (m ((c : Thread nD τ).loc main_arg11)) := by
  refine (W6_arr m ρ c 5).trans ((hf.f2 (V5 m ρ) c).trans ?_)
  show Spec.conv (W5 m ρ c (Proc.devRef .tc main_v27) : S50000x64.Idx → EReal) (W5 m ρ c (Proc.devRef .tc main_v37) : S50000x64.Idx → EReal)
      (W5 m ρ c (Proc.devRef .tc main_arg9) : S64x64.Idx → EReal) (fun q => (W5 m ρ c (Proc.devRef .tc main_v38) : S1x64.Idx → EReal) (ix2 (0 : Fin 1) q))
      (W5 m ρ c (Proc.devRef .tc main_arg11) : S64x64.Idx → EReal) = _
  rw [W5_v38 m ρ c, W5_v37 m ρ c, step5 m ρ c main_v27 (by decide), at5 m ρ c main_arg9 (by decide) (by decide) (by decide) (by decide) (by decide),
    at5 m ρ c main_arg11 (by decide) (by decide) (by decide) (by decide) (by decide)]

/-! ## The pooling and the last launch -/

theorem W7_v42 (c : Dev nD) :
    (W7 m ρ c (Proc.devRef .tc main_v42) : S512x64.Idx → EReal) = pool (m ((c : Thread nD τ).loc main_arg2)) (W6 m ρ c (Proc.devRef .tc main_v39)) := by
  show StableHlo.after hostOps3 (W6 m ρ c) (Proc.devRef .tc main_v42) = _
  after_results
  rw [at6 m ρ c main_arg2 (by decide) (by decide) (by decide) (by decide) (by decide) (by decide)]
  rfl

theorem W7_v43 (c : Dev nD) :
    (fun j => (W7 m ρ c (Proc.devRef .tc main_v43) : S1x64.Idx → EReal) (ix2 (0 : Fin 1) j))
      = fun j => ((m ((c : Thread nD τ).loc main_arg13)) : S64.Idx → EReal) (ix1 j) := by
  have e : (W7 m ρ c (Proc.devRef .tc main_v43) : S1x64.Idx → EReal)
      = shapeCast S1x64 ((m ((c : Thread nD τ).loc main_arg13)) : S64.Idx → EReal) shapeCasts_S64_S1x64 := by
    show StableHlo.after hostOps3 (W6 m ρ c) (Proc.devRef .tc main_v43) = _
    after_results
    rw [at6 m ρ c main_arg13 (by decide) (by decide) (by decide) (by decide) (by decide) (by decide)]
    rfl
  funext j
  rw [e]
  exact shapeCast_a_1a_apply _ _ _ _

theorem W7_v44 (c : Dev nD) :
    (fun r => (W7 m ρ c (Proc.devRef .tc main_v44) : S1x32.Idx → EReal) (ix2 (0 : Fin 1) r))
      = fun r => ((m ((c : Thread nD τ).loc main_arg15)) : S32.Idx → EReal) (ix1 r) := by
  have e : (W7 m ρ c (Proc.devRef .tc main_v44) : S1x32.Idx → EReal)
      = shapeCast S1x32 ((m ((c : Thread nD τ).loc main_arg15)) : S32.Idx → EReal) shapeCasts_S32_S1x32 := by
    show StableHlo.after hostOps3 (W6 m ρ c) (Proc.devRef .tc main_v44) = _
    after_results
    rw [at6 m ρ c main_arg15 (by decide) (by decide) (by decide) (by decide) (by decide) (by decide)]
    rfl
  funext r
  rw [e]
  exact shapeCast_a_1a_apply _ _ _ _

theorem W8_v45 (hf : Finals) (c : Dev nD) :
    (W8 m ρ c (Proc.devRef .tc main_v45) : S512x32.Idx → EReal)
      = Spec.head negInf (pool (m ((c : Thread nD τ).loc main_arg2)) (W6 m ρ c (Proc.devRef .tc main_v39))) (m ((c : Thread nD τ).loc main_arg12)) (fun j => (m ((c : Thread nD τ).loc main_arg13)) (ix1 j)) (m ((c : Thread nD τ).loc main_arg14))
          (fun r => (m ((c : Thread nD τ).loc main_arg15)) (ix1 r)) := by
  refine (W8_arr m ρ c 5).trans ((hf.f3 (V7 m ρ) c).trans ?_)
  show Spec.head negInf (W7 m ρ c (Proc.devRef .tc main_v42) : S512x64.Idx → EReal) (W7 m ρ c (Proc.devRef .tc main_arg12) : S64x64.Idx → EReal)
      (fun j => (W7 m ρ c (Proc.devRef .tc main_v43) : S1x64.Idx → EReal) (ix2 (0 : Fin 1) j)) (W7 m ρ c (Proc.devRef .tc main_arg14) : S32x64.Idx → EReal)
      (fun r => (W7 m ρ c (Proc.devRef .tc main_v44) : S1x32.Idx → EReal) (ix2 (0 : Fin 1) r)) = _
  rw [W7_v43 m ρ c, W7_v44 m ρ c, W7_v42 m ρ c, at7 m ρ c main_arg12 (by decide) (by decide) (by decide) (by decide) (by decide) (by decide) (by decide),
    at7 m ρ c main_arg14 (by decide) (by decide) (by decide) (by decide) (by decide) (by decide) (by decide)]

/-- THE RESULT: the last boundary's contents at the result buffer are the network of the launch memory's arguments. -/
theorem result_eq (hf : Finals) (c : Dev nD) :
    W8 m ρ c (Proc.devRef .tc main_v45) =
      out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) := by
  rw [W8_v45 m ρ hf c, W6_v39 m ρ hf c, W4_v27 m ρ hf c, W2_v15 m ρ hf c]
  rfl

end Cert.KernelIdeal.KThread

end
-- ==== Proof.RefVal.lean ====
/-
  The reference program's result as one function of its sixteen arguments.

  The program is a composition of host operations: for every edge it gathers the feature row of the edge's source node
  and adds it into the row of the edge's target node (the neighbourhood sums), applies a graph-convolution layer — two
  matrix products against transposed weights and a bias row, with the maximum with zero after the first two layers —,
  adds every node's row into the row of the node's graph (the pooling), and ends with the classifier head: a dense
  layer, the maximum with zero, a second dense layer and the logarithm of the row-wise softmax in its shifted form.
  Read at an entry, each layer is the layer function of the specification and the head is the specification's head;
  the gathers and scatters stay as the host operations they are. The result term is then the three layers, the pooling
  and the head composed.
-/
import proofs.«114097_j85770496901295_1_alg».proof.Proof.RefRun
import proofs.«114097_j85770496901295_1_alg».proof.Proof.Spec
import proofs.«114097_j85770496901295_1_alg».proof.Proof.LibDot
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

set_option maxRecDepth 16384

noncomputable section

open scoped BigOperators

namespace Cert.ReferenceIdeal.RefVal

open Cert.ReferenceIdeal Cert.ReferenceIdeal.Gen Idealize.ShloMosaic Idealize.ShloMosaic.TcCoe Idealize.ShloMosaic.ValueIdx Idealize.SL.Sem

/-- The word the row maximum is folded from: the pattern of `-∞`. -/
abbrev negInf : EReal := Ideal.ofBits .f32 0xFF800000#32

/-! ## The three graph-convolution layers

Each layer is two matrix products against transposed weights, a bias row broadcast over the nodes, and (for the first
two) the maximum with a zero splat. At node `p` and output feature `q` the products are sums over the input feature,
the transposed weights read back at swapped coordinates, the broadcasts read the bias at `q` and the zero word; the
reference adds the bias before the second product sum, which commutativity and associativity of the extended reals'
addition reorder. -/

theorem layer1_eq (X A : FVec Ideal S50000x128 .f32) (Wrel Wroot : FVec Ideal S128x128 .f32) (b : FVec Ideal S128 .f32) :
    maximumf (addf (addf (Host.dotGeneral dot_S50000x128_S128x128_S50000x128_1_0_0_1_n_n none A (transpose S128x128 [1, 0] Wrel transposes_S128x128_S128x128_1_0)) (broadcastInDim S50000x128 ![0, 1] bcast_S1x128_S50000x128_0_1 (broadcastInDim S1x128 ![1] bcast_S128_S1x128_1 b))) (Host.dotGeneral dot_S50000x128_S128x128_S50000x128_1_0_0_1_n_n none X (transpose S128x128 [1, 0] Wroot transposes_S128x128_S128x128_1_0))) (broadcastInDim S50000x128 ![] bcast_S_S50000x128 (constant (F := Ideal) S_ .f32 0x00000000#32)) = Spec.convRelu X A Wrel (fun q => b (ix1 q)) Wroot := by
  funext i
  obtain ⟨p, q, rfl⟩ : ∃ (p : Fin 50000) (q : Fin 128), i = ix2 p q := ⟨i 0, i 1, eq_ix2 i⟩
  rw [Spec.convRelu_apply, maximumf_apply, addf_apply, addf_apply]
  rw [LibDot.dotGeneral_apply _ rfl rfl rfl rfl rfl rfl, LibDot.dotGeneral_apply _ rfl rfl rfl rfl rfl rfl]
  have ht (w : FVec Ideal S128x128 .f32) (k : Fin 128) :
      transpose S128x128 [1, 0] w transposes_S128x128_S128x128_1_0 (ix2 k q) = w (ix2 q k) := transpose_ix2_apply w _ k q
  simp only [ht]
  rw [broadcastInDim_scalar_apply, constant_apply, Ideal.ofBits_zero_f32]
  rw [broadcastInDim_apply _ _ _ _ (ix2 (0 : Fin 1) q) (fun a => match a with | ⟨0, _⟩ => rfl | ⟨1, _⟩ => rfl)]
  rw [broadcastInDim_apply _ _ _ _ (ix1 q) (fun a => match a with | ⟨0, _⟩ => rfl)]
  exact congrArg (fun z => max z 0) (Spec.convAt_bias_first X A Wrel (fun q => b (ix1 q)) Wroot p q)

theorem layer2_eq (X A : FVec Ideal S50000x128 .f32) (Wrel Wroot : FVec Ideal S64x128 .f32) (b : FVec Ideal S64 .f32) :
    maximumf (addf (addf (Host.dotGeneral dot_S50000x128_S128x64_S50000x64_1_0_0_1_n_n none A (transpose S128x64 [1, 0] Wrel transposes_S64x128_S128x64_1_0)) (broadcastInDim S50000x64 ![0, 1] bcast_S1x64_S50000x64_0_1 (broadcastInDim S1x64 ![1] bcast_S64_S1x64_1 b))) (Host.dotGeneral dot_S50000x128_S128x64_S50000x64_1_0_0_1_n_n none X (transpose S128x64 [1, 0] Wroot transposes_S64x128_S128x64_1_0))) (broadcastInDim S50000x64 ![] bcast_S_S50000x64 (constant (F := Ideal) S_ .f32 0x00000000#32)) = Spec.convRelu X A Wrel (fun q => b (ix1 q)) Wroot := by
  funext i
  obtain ⟨p, q, rfl⟩ : ∃ (p : Fin 50000) (q : Fin 64), i = ix2 p q := ⟨i 0, i 1, eq_ix2 i⟩
  rw [Spec.convRelu_apply, maximumf_apply, addf_apply, addf_apply]
  rw [LibDot.dotGeneral_apply _ rfl rfl rfl rfl rfl rfl, LibDot.dotGeneral_apply _ rfl rfl rfl rfl rfl rfl]
  have ht (w : FVec Ideal S64x128 .f32) (k : Fin 128) :
      transpose S128x64 [1, 0] w transposes_S64x128_S128x64_1_0 (ix2 k q) = w (ix2 q k) := transpose_ix2_apply w _ k q
  simp only [ht]
  rw [broadcastInDim_scalar_apply, constant_apply, Ideal.ofBits_zero_f32]
  rw [broadcastInDim_apply _ _ _ _ (ix2 (0 : Fin 1) q) (fun a => match a with | ⟨0, _⟩ => rfl | ⟨1, _⟩ => rfl)]
  rw [broadcastInDim_apply _ _ _ _ (ix1 q) (fun a => match a with | ⟨0, _⟩ => rfl)]
  exact congrArg (fun z => max z 0) (Spec.convAt_bias_first X A Wrel (fun q => b (ix1 q)) Wroot p q)

theorem layer3_eq (X A : FVec Ideal S50000x64 .f32) (Wrel Wroot : FVec Ideal S64x64 .f32) (b : FVec Ideal S64 .f32) :
    addf (addf (Host.dotGeneral dot_S50000x64_S64x64_S50000x64_1_0_0_1_n_n none A (transpose S64x64 [1, 0] Wrel transposes_S64x64_S64x64_1_0)) (broadcastInDim S50000x64 ![0, 1] bcast_S1x64_S50000x64_0_1 (broadcastInDim S1x64 ![1] bcast_S64_S1x64_1 b))) (Host.dotGeneral dot_S50000x64_S64x64_S50000x64_1_0_0_1_n_n none X (transpose S64x64 [1, 0] Wroot transposes_S64x64_S64x64_1_0)) = Spec.conv X A Wrel (fun q => b (ix1 q)) Wroot := by
  funext i
  obtain ⟨p, q, rfl⟩ : ∃ (p : Fin 50000) (q : Fin 64), i = ix2 p q := ⟨i 0, i 1, eq_ix2 i⟩
  rw [Spec.conv_apply, addf_apply, addf_apply]
  rw [LibDot.dotGeneral_apply _ rfl rfl rfl rfl rfl rfl, LibDot.dotGeneral_apply _ rfl rfl rfl rfl rfl rfl]
  have ht (w : FVec Ideal S64x64 .f32) (k : Fin 64) :
      transpose S64x64 [1, 0] w transposes_S64x64_S64x64_1_0 (ix2 k q) = w (ix2 q k) := transpose_ix2_apply w _ k q
  simp only [ht]
  rw [broadcastInDim_apply _ _ _ _ (ix2 (0 : Fin 1) q) (fun a => match a with | ⟨0, _⟩ => rfl | ⟨1, _⟩ => rfl)]
  rw [broadcastInDim_apply _ _ _ _ (ix1 q) (fun a => match a with | ⟨0, _⟩ => rfl)]
  exact Spec.convAt_bias_first X A Wrel (fun q => b (ix1 q)) Wroot p q

/-! ## The classifier head -/

/-- The scores: a dense layer, the maximum with a zero splat, a second dense layer. At graph `p` and class `q` the outer
    product is a sum over the hidden feature `j`, whose left factor is the hidden activation at `(p, j)`. -/
theorem scores_eq (G : FVec Ideal S512x64 .f32) (W1 : FVec Ideal S64x64 .f32) (b1 : FVec Ideal S64 .f32)
    (W2 : FVec Ideal S32x64 .f32) (b2 : FVec Ideal S32 .f32) :
    addf (Host.dotGeneral dot_S512x64_S64x32_S512x32_1_0_0_1_n_n none (maximumf (addf (Host.dotGeneral dot_S512x64_S64x64_S512x64_1_0_0_1_n_n none G (transpose S64x64 [1, 0] W1 transposes_S64x64_S64x64_1_0)) (broadcastInDim S512x64 ![0, 1] bcast_S1x64_S512x64_0_1 (broadcastInDim S1x64 ![1] bcast_S64_S1x64_1 b1))) (broadcastInDim S512x64 ![] bcast_S_S512x64 (constant (F := Ideal) S_ .f32 0x00000000#32))) (transpose S64x32 [1, 0] W2 transposes_S32x64_S64x32_1_0)) (broadcastInDim S512x32 ![0, 1] bcast_S1x32_S512x32_0_1 (broadcastInDim S1x32 ![1] bcast_S32_S1x32_1 b2))
      = fun i => Spec.scoreAt G W1 (fun j => b1 (ix1 j)) W2 (fun r => b2 (ix1 r)) (i 0) (i 1) := by
  funext i
  obtain ⟨p, q, rfl⟩ : ∃ (p : Fin 512) (q : Fin 32), i = ix2 p q := ⟨i 0, i 1, eq_ix2 i⟩
  show _ = Spec.scoreAt G W1 (fun j => b1 (ix1 j)) W2 (fun r => b2 (ix1 r)) p q
  rw [addf_apply, LibDot.dotGeneral_apply _ rfl rfl rfl rfl rfl rfl]
  rw [broadcastInDim_apply _ _ _ _ (ix2 (0 : Fin 1) q) (fun a => match a with | ⟨0, _⟩ => rfl | ⟨1, _⟩ => rfl)]
  rw [broadcastInDim_apply _ _ _ _ (ix1 q) (fun a => match a with | ⟨0, _⟩ => rfl)]
  unfold Spec.scoreAt
  refine congrArg (· + b2 (ix1 q)) (Finset.sum_congr rfl fun j _ => ?_)
  rw [transpose_ix2_apply W2 _ j q]
  refine congrArg (· * W2 (ix2 q j)) ?_
  rw [maximumf_apply, addf_apply, LibDot.dotGeneral_apply _ rfl rfl rfl rfl rfl rfl]
  have ht (k : Fin 64) :
      transpose S64x64 [1, 0] W1 transposes_S64x64_S64x64_1_0 (ix2 k j) = W1 (ix2 j k) := transpose_ix2_apply W1 _ k j
  simp only [ht]
  rw [broadcastInDim_scalar_apply, constant_apply, Ideal.ofBits_zero_f32]
  rw [broadcastInDim_apply _ _ _ _ (ix2 (0 : Fin 1) j) (fun a => match a with | ⟨0, _⟩ => rfl | ⟨1, _⟩ => rfl)]
  rw [broadcastInDim_apply _ _ _ _ (ix1 j) (fun a => match a with | ⟨0, _⟩ => rfl)]
  rfl

/-- A class index put back into a reduced graph index is the pair. -/
theorem lift_ix2 (h : S512x32.Reduces [1] S512) (p : Fin 512) (k : Fin (S512x32.size 1)) :
    h.lift (ix1 p) k = ix2 p (⟨k.val, k.isLt⟩ : Fin 32) := by
  funext c; apply Fin.ext
  fin_cases c <;> rfl

/-- The shift of the log-softmax: the row maximum folded from `-∞`, once more maximised with `-∞`, and broadcast back
    over the classes. -/
theorem shift_apply (S : FVec Ideal S512x32 .f32) (p : Fin 512) (r : Fin 32) :
    broadcastInDim S512x32 ![0, 1] bcast_S512x1_S512x32_0_1 (broadcastInDim S512x1 ![0] bcast_S512_S512x1_0 (maximumf (broadcastInDim S512 ![] bcast_S_S512 (constant (F := Ideal) S_ .f32 0xFF800000#32)) (Host.reduce FloatOps.maximumf S (constant (F := Ideal) S_ .f32 0xFF800000#32) reducesTo_S512x32_S512_d1 h_S_))) (ix2 p r)
      = Spec.rowMax negInf (fun r => S (ix2 p r)) := by
  rw [broadcastInDim_apply _ _ _ _ (ix2 p (0 : Fin 1)) (fun a => match a with | ⟨0, _⟩ => rfl | ⟨1, _⟩ => rfl)]
  rw [broadcastInDim_apply _ _ _ _ (ix1 p) (fun a => match a with | ⟨0, _⟩ => rfl)]
  rw [maximumf_apply, broadcastInDim_scalar_apply, constant_apply]
  have h : S512x32.Reduces [1] S512 := by decide
  rw [Host.reduce_eq_fold_single FloatOps.maximumf S _ reducesTo_S512x32_S512_d1 h h_S_]
  have hf : (S ∘ h.lift (ix1 p)) = fun r : Fin 32 => S (ix2 p r) := funext fun k => congrArg S (lift_ix2 h p k)
  rw [hf]
  exact Spec.max_lo_rowMax negInf (fun r => S (ix2 p r))

/-- The logarithm of the row-wise softmax in its shifted form: the scores less the row maximum, less the logarithm of the
    row's sum of exponentials of the shifted scores (the sum starts from the zero word). -/
theorem logSoftmax_eq (S : FVec Ideal S512x32 .f32) :
    subf (subf S (broadcastInDim S512x32 ![0, 1] bcast_S512x1_S512x32_0_1 (broadcastInDim S512x1 ![0] bcast_S512_S512x1_0 (maximumf (broadcastInDim S512 ![] bcast_S_S512 (constant (F := Ideal) S_ .f32 0xFF800000#32)) (Host.reduce FloatOps.maximumf S (constant (F := Ideal) S_ .f32 0xFF800000#32) reducesTo_S512x32_S512_d1 h_S_))))) (broadcastInDim S512x32 ![0, 1] bcast_S512x1_S512x32_0_1 (Host.log (broadcastInDim S512x1 ![0] bcast_S512_S512x1_0 (Host.reduceAdd (Host.exp (subf S (broadcastInDim S512x32 ![0, 1] bcast_S512x1_S512x32_0_1 (broadcastInDim S512x1 ![0] bcast_S512_S512x1_0 (maximumf (broadcastInDim S512 ![] bcast_S_S512 (constant (F := Ideal) S_ .f32 0xFF800000#32)) (Host.reduce FloatOps.maximumf S (constant (F := Ideal) S_ .f32 0xFF800000#32) reducesTo_S512x32_S512_d1 h_S_)))))) (constant (F := Ideal) S_ .f32 0x00000000#32) reducesTo_S512x32_S512_d1 h_S_))))
      = fun i => Spec.logSoftmaxAt negInf (fun r => S (ix2 (i 0) r)) (i 1) := by
  funext i
  obtain ⟨p, q, rfl⟩ : ∃ (p : Fin 512) (q : Fin 32), i = ix2 p q := ⟨i 0, i 1, eq_ix2 i⟩
  show _ = Spec.logSoftmaxAt negInf (fun r => S (ix2 p r)) q
  rw [subf_apply, subf_apply, shift_apply]
  rw [broadcastInDim_apply _ _ _ _ (ix2 p (0 : Fin 1)) (fun a => match a with | ⟨0, _⟩ => rfl | ⟨1, _⟩ => rfl)]
  unfold Spec.logSoftmaxAt
  refine congrArg (fun z => (S (ix2 p q) - Spec.rowMax negInf (fun r => S (ix2 p r))) - z) ?_
  show Ideal.log _ = _
  refine congrArg Ideal.log ?_
  rw [broadcastInDim_apply _ _ _ _ (ix1 p) (fun a => match a with | ⟨0, _⟩ => rfl)]
  have h : S512x32.Reduces [1] S512 := by decide
  rw [hostReduceAdd_apply, Ideal.hostReduceAdd_single reducesTo_S512x32_S512_d1 h, constant_apply, Ideal.ofBits_zero_f32, zero_add]
  refine Finset.sum_congr rfl fun k _ => ?_
  rw [lift_ix2 h p k]
  show Ideal.exp _ = _
  rw [subf_apply, shift_apply]
  rfl

/-! ## The network as one function of the sixteen arguments -/

/-- The source node of each edge, a negative index counted from the end. -/
def srcIdx (e : (⟨S2x600000, .i32⟩ : BufTy).Contents (Elt Ideal)) : (⟨S600000x1, .i32⟩ : BufTy).Contents (Elt Ideal) :=
  broadcastInDim S600000x1 ![0] bcast_S600000_S600000x1_0
    (select
      (cmpi .slt (shapeCast _ (extractStridedSlice S1x600000 ![0, 0] e slices_S2x600000_S1x600000_0_0) shapeCasts_S1x600000_S600000)
        (broadcastInDim S600000 ![] bcast_S_S600000 (constantI S_ 32 0#32)))
      (addi (shapeCast _ (extractStridedSlice S1x600000 ![0, 0] e slices_S2x600000_S1x600000_0_0) shapeCasts_S1x600000_S600000)
        (broadcastInDim S600000 ![] bcast_S_S600000 (constantI S_ 32 50000#32)))
      (shapeCast _ (extractStridedSlice S1x600000 ![0, 0] e slices_S2x600000_S1x600000_0_0) shapeCasts_S1x600000_S600000))

/-- The target node of each edge. -/
def dstIdx (e : (⟨S2x600000, .i32⟩ : BufTy).Contents (Elt Ideal)) : (⟨S600000x1, .i32⟩ : BufTy).Contents (Elt Ideal) :=
  broadcastInDim S600000x1 ![0] bcast_S600000_S600000x1_0
    (shapeCast _ (extractStridedSlice S1x600000 ![1, 0] e slices_S2x600000_S1x600000_1_0) shapeCasts_S1x600000_S600000)

/-- Neighbourhood sums of 128-wide features. -/
def agg128 (e : (⟨S2x600000, .i32⟩ : BufTy).Contents (Elt Ideal)) (X : (⟨S50000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32)) (dstIdx e)
    (Host.gather gather_S50000x128_S600000x1_S600000x128_1_0_n_n_0_1_1128 X (srcIdx e))

/-- Neighbourhood sums of 64-wide features. -/
def agg64 (e : (⟨S2x600000, .i32⟩ : BufTy).Contents (Elt Ideal)) (X : (⟨S50000x64, .f32⟩ : BufTy).Contents (Elt Ideal)) :
    (⟨S50000x64, .f32⟩ : BufTy).Contents (Elt Ideal) :=
  Host.scatterAdd (F := Ideal) scatter_S50000x64_S600000x1_S600000x64_1_0_0_1
    (broadcastInDim S50000x64 ![] bcast_S_S50000x64 (constant (F := Ideal) S_ .f32 0x00000000#32)) (dstIdx e)
    (Host.gather gather_S50000x64_S600000x1_S600000x64_1_0_n_n_0_1_164 X (srcIdx e))

/-- The sum of the node rows of each graph. -/
def pool (g : (⟨S50000, .i32⟩ : BufTy).Contents (Elt Ideal)) (H : (⟨S50000x64, .f32⟩ : BufTy).Contents (Elt Ideal)) :
    (⟨S512x64, .f32⟩ : BufTy).Contents (Elt Ideal) :=
  Host.scatterAdd (F := Ideal) scatter_S512x64_S50000x1_S50000x64_1_0_0_1
    (broadcastInDim S512x64 ![] bcast_S_S512x64 (constant (F := Ideal) S_ .f32 0x00000000#32))
    (broadcastInDim S50000x1 ![0] bcast_S50000_S50000x1_0 g) H

/-- The network: three layers over the neighbourhood sums, the pooling, the head. -/
def out (a0 : (⟨S50000x128, .f32⟩ : BufTy).Contents (Elt Ideal)) (a1 : (⟨S2x600000, .i32⟩ : BufTy).Contents (Elt Ideal))
    (a2 : (⟨S50000, .i32⟩ : BufTy).Contents (Elt Ideal))
    (a3 : (⟨S128x128, .f32⟩ : BufTy).Contents (Elt Ideal)) (a4 : (⟨S128, .f32⟩ : BufTy).Contents (Elt Ideal)) (a5 : (⟨S128x128, .f32⟩ : BufTy).Contents (Elt Ideal))
    (a6 : (⟨S64x128, .f32⟩ : BufTy).Contents (Elt Ideal)) (a7 : (⟨S64, .f32⟩ : BufTy).Contents (Elt Ideal)) (a8 : (⟨S64x128, .f32⟩ : BufTy).Contents (Elt Ideal))
    (a9 : (⟨S64x64, .f32⟩ : BufTy).Contents (Elt Ideal)) (a10 : (⟨S64, .f32⟩ : BufTy).Contents (Elt Ideal)) (a11 : (⟨S64x64, .f32⟩ : BufTy).Contents (Elt Ideal))
    (a12 : (⟨S64x64, .f32⟩ : BufTy).Contents (Elt Ideal)) (a13 : (⟨S64, .f32⟩ : BufTy).Contents (Elt Ideal))
    (a14 : (⟨S32x64, .f32⟩ : BufTy).Contents (Elt Ideal)) (a15 : (⟨S32, .f32⟩ : BufTy).Contents (Elt Ideal)) : Spec.Arr2 512 32 :=
  Spec.head negInf
    (pool a2
      (Spec.conv
        (Spec.convRelu (Spec.convRelu a0 (agg128 a1 a0) a3 (fun q => a4 (ix1 q)) a5)
          (agg128 a1 (Spec.convRelu a0 (agg128 a1 a0) a3 (fun q => a4 (ix1 q)) a5)) a6 (fun q => a7 (ix1 q)) a8)
        (agg64 a1
          (Spec.convRelu (Spec.convRelu a0 (agg128 a1 a0) a3 (fun q => a4 (ix1 q)) a5)
            (agg128 a1 (Spec.convRelu a0 (agg128 a1 a0) a3 (fun q => a4 (ix1 q)) a5)) a6 (fun q => a7 (ix1 q)) a8))
        a9 (fun q => a10 (ix1 q)) a11))
    a12 (fun j => a13 (ix1 j)) a14 (fun r => a15 (ix1 r))

/-- The head: the scores under the shifted log-softmax. -/
theorem head_eq (G : FVec Ideal S512x64 .f32) (W1 : FVec Ideal S64x64 .f32) (b1 : FVec Ideal S64 .f32)
    (W2 : FVec Ideal S32x64 .f32) (b2 : FVec Ideal S32 .f32) :
    subf (F := Ideal) (subf (addf (Host.dotGeneral dot_S512x64_S64x32_S512x32_1_0_0_1_n_n none (maximumf (addf (Host.dotGeneral dot_S512x64_S64x64_S512x64_1_0_0_1_n_n none G (transpose S64x64 [1, 0] W1 transposes_S64x64_S64x64_1_0)) (broadcastInDim S512x64 ![0, 1] bcast_S1x64_S512x64_0_1 (broadcastInDim S1x64 ![1] bcast_S64_S1x64_1 b1))) (broadcastInDim S512x64 ![] bcast_S_S512x64 (constant (F := Ideal) S_ .f32 0x00000000#32))) (transpose S64x32 [1, 0] W2 transposes_S32x64_S64x32_1_0)) (broadcastInDim S512x32 ![0, 1] bcast_S1x32_S512x32_0_1 (broadcastInDim S1x32 ![1] bcast_S32_S1x32_1 b2))) (broadcastInDim S512x32 ![0, 1] bcast_S512x1_S512x32_0_1 (broadcastInDim S512x1 ![0] bcast_S512_S512x1_0 (maximumf (broadcastInDim S512 ![] bcast_S_S512 (constant (F := Ideal) S_ .f32 0xFF800000#32)) (Host.reduce FloatOps.maximumf (addf (Host.dotGeneral dot_S512x64_S64x32_S512x32_1_0_0_1_n_n none (maximumf (addf (Host.dotGeneral dot_S512x64_S64x64_S512x64_1_0_0_1_n_n none G (transpose S64x64 [1, 0] W1 transposes_S64x64_S64x64_1_0)) (broadcastInDim S512x64 ![0, 1] bcast_S1x64_S512x64_0_1 (broadcastInDim S1x64 ![1] bcast_S64_S1x64_1 b1))) (broadcastInDim S512x64 ![] bcast_S_S512x64 (constant (F := Ideal) S_ .f32 0x00000000#32))) (transpose S64x32 [1, 0] W2 transposes_S32x64_S64x32_1_0)) (broadcastInDim S512x32 ![0, 1] bcast_S1x32_S512x32_0_1 (broadcastInDim S1x32 ![1] bcast_S32_S1x32_1 b2))) (constant (F := Ideal) S_ .f32 0xFF800000#32) reducesTo_S512x32_S512_d1 h_S_))))) (broadcastInDim S512x32 ![0, 1] bcast_S512x1_S512x32_0_1 (Host.log (broadcastInDim S512x1 ![0] bcast_S512_S512x1_0 (Host.reduceAdd (Host.exp (subf (addf (Host.dotGeneral dot_S512x64_S64x32_S512x32_1_0_0_1_n_n none (maximumf (addf (Host.dotGeneral dot_S512x64_S64x64_S512x64_1_0_0_1_n_n none G (transpose S64x64 [1, 0] W1 transposes_S64x64_S64x64_1_0)) (broadcastInDim S512x64 ![0, 1] bcast_S1x64_S512x64_0_1 (broadcastInDim S1x64 ![1] bcast_S64_S1x64_1 b1))) (broadcastInDim S512x64 ![] bcast_S_S512x64 (constant (F := Ideal) S_ .f32 0x00000000#32))) (transpose S64x32 [1, 0] W2 transposes_S32x64_S64x32_1_0)) (broadcastInDim S512x32 ![0, 1] bcast_S1x32_S512x32_0_1 (broadcastInDim S1x32 ![1] bcast_S32_S1x32_1 b2))) (broadcastInDim S512x32 ![0, 1] bcast_S512x1_S512x32_0_1 (broadcastInDim S512x1 ![0] bcast_S512_S512x1_0 (maximumf (broadcastInDim S512 ![] bcast_S_S512 (constant (F := Ideal) S_ .f32 0xFF800000#32)) (Host.reduce FloatOps.maximumf (addf (Host.dotGeneral dot_S512x64_S64x32_S512x32_1_0_0_1_n_n none (maximumf (addf (Host.dotGeneral dot_S512x64_S64x64_S512x64_1_0_0_1_n_n none G (transpose S64x64 [1, 0] W1 transposes_S64x64_S64x64_1_0)) (broadcastInDim S512x64 ![0, 1] bcast_S1x64_S512x64_0_1 (broadcastInDim S1x64 ![1] bcast_S64_S1x64_1 b1))) (broadcastInDim S512x64 ![] bcast_S_S512x64 (constant (F := Ideal) S_ .f32 0x00000000#32))) (transpose S64x32 [1, 0] W2 transposes_S32x64_S64x32_1_0)) (broadcastInDim S512x32 ![0, 1] bcast_S1x32_S512x32_0_1 (broadcastInDim S1x32 ![1] bcast_S32_S1x32_1 b2))) (constant (F := Ideal) S_ .f32 0xFF800000#32) reducesTo_S512x32_S512_d1 h_S_)))))) (constant (F := Ideal) S_ .f32 0x00000000#32) reducesTo_S512x32_S512_d1 h_S_))))
      = Spec.head negInf G W1 (fun j => b1 (ix1 j)) W2 (fun r => b2 (ix1 r)) := by
  rw [scores_eq, logSoftmax_eq]
  rfl

/-- Over any sixteen arrays the result term is the network: each layer pattern is its layer function, the head pattern is
    the head, and what remains are the gather and scatter chains, which are the definitions above. -/
theorem term_eq (a0 : FVec Ideal S50000x128 .f32) (a1 : (⟨S2x600000, .i32⟩ : BufTy).Contents (Elt Ideal)) (a2 : (⟨S50000, .i32⟩ : BufTy).Contents (Elt Ideal)) (a3 : FVec Ideal S128x128 .f32) (a4 : FVec Ideal S128 .f32) (a5 : FVec Ideal S128x128 .f32) (a6 : FVec Ideal S64x128 .f32) (a7 : FVec Ideal S64 .f32) (a8 : FVec Ideal S64x128 .f32) (a9 : FVec Ideal S64x64 .f32) (a10 : FVec Ideal S64 .f32) (a11 : FVec Ideal S64x64 .f32) (a12 : FVec Ideal S64x64 .f32) (a13 : FVec Ideal S64 .f32) (a14 : FVec Ideal S32x64 .f32) (a15 : FVec Ideal S32 .f32) :
    subf (F := Ideal) (subf (addf (Host.dotGeneral dot_S512x64_S64x32_S512x32_1_0_0_1_n_n none (maximumf (addf (Host.dotGeneral dot_S512x64_S64x64_S512x64_1_0_0_1_n_n none (Host.scatterAdd scatter_S512x64_S50000x1_S50000x64_1_0_0_1 (broadcastInDim S512x64 ![] bcast_S_S512x64 (constant (F := Ideal) S_ .f32 0x00000000#32)) (broadcastInDim S50000x1 ![0] bcast_S50000_S50000x1_0 a2) (addf (addf (Host.dotGeneral dot_S50000x64_S64x64_S50000x64_1_0_0_1_n_n none (Host.scatterAdd scatter_S50000x64_S600000x1_S600000x64_1_0_0_1 (broadcastInDim S50000x64 ![] bcast_S_S50000x64 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x64_S600000x1_S600000x64_1_0_n_n_0_1_164 (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S64x64 [1, 0] a9 transposes_S64x64_S64x64_1_0)) (broadcastInDim S50000x64 ![0, 1] bcast_S1x64_S50000x64_0_1 (broadcastInDim S1x64 ![1] bcast_S64_S1x64_1 a10))) (Host.dotGeneral dot_S50000x64_S64x64_S50000x64_1_0_0_1_n_n none (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (transpose S64x64 [1, 0] a11 transposes_S64x64_S64x64_1_0)))) (transpose S64x64 [1, 0] a12 transposes_S64x64_S64x64_1_0)) (broadcastInDim S512x64 ![0, 1] bcast_S1x64_S512x64_0_1 (broadcastInDim S1x64 ![1] bcast_S64_S1x64_1 a13))) (broadcastInDim S512x64 ![] bcast_S_S512x64 (constant (F := Ideal) S_ .f32 0x00000000#32))) (transpose S64x32 [1, 0] a14 transposes_S32x64_S64x32_1_0)) (broadcastInDim S512x32 ![0, 1] bcast_S1x32_S512x32_0_1 (broadcastInDim S1x32 ![1] bcast_S32_S1x32_1 a15))) (broadcastInDim S512x32 ![0, 1] bcast_S512x1_S512x32_0_1 (broadcastInDim S512x1 ![0] bcast_S512_S512x1_0 (maximumf (broadcastInDim S512 ![] bcast_S_S512 (constant (F := Ideal) S_ .f32 0xFF800000#32)) (Host.reduce FloatOps.maximumf (addf (Host.dotGeneral dot_S512x64_S64x32_S512x32_1_0_0_1_n_n none (maximumf (addf (Host.dotGeneral dot_S512x64_S64x64_S512x64_1_0_0_1_n_n none (Host.scatterAdd scatter_S512x64_S50000x1_S50000x64_1_0_0_1 (broadcastInDim S512x64 ![] bcast_S_S512x64 (constant (F := Ideal) S_ .f32 0x00000000#32)) (broadcastInDim S50000x1 ![0] bcast_S50000_S50000x1_0 a2) (addf (addf (Host.dotGeneral dot_S50000x64_S64x64_S50000x64_1_0_0_1_n_n none (Host.scatterAdd scatter_S50000x64_S600000x1_S600000x64_1_0_0_1 (broadcastInDim S50000x64 ![] bcast_S_S50000x64 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x64_S600000x1_S600000x64_1_0_n_n_0_1_164 (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S64x64 [1, 0] a9 transposes_S64x64_S64x64_1_0)) (broadcastInDim S50000x64 ![0, 1] bcast_S1x64_S50000x64_0_1 (broadcastInDim S1x64 ![1] bcast_S64_S1x64_1 a10))) (Host.dotGeneral dot_S50000x64_S64x64_S50000x64_1_0_0_1_n_n none (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (transpose S64x64 [1, 0] a11 transposes_S64x64_S64x64_1_0)))) (transpose S64x64 [1, 0] a12 transposes_S64x64_S64x64_1_0)) (broadcastInDim S512x64 ![0, 1] bcast_S1x64_S512x64_0_1 (broadcastInDim S1x64 ![1] bcast_S64_S1x64_1 a13))) (broadcastInDim S512x64 ![] bcast_S_S512x64 (constant (F := Ideal) S_ .f32 0x00000000#32))) (transpose S64x32 [1, 0] a14 transposes_S32x64_S64x32_1_0)) (broadcastInDim S512x32 ![0, 1] bcast_S1x32_S512x32_0_1 (broadcastInDim S1x32 ![1] bcast_S32_S1x32_1 a15))) (constant (F := Ideal) S_ .f32 0xFF800000#32) reducesTo_S512x32_S512_d1 h_S_))))) (broadcastInDim S512x32 ![0, 1] bcast_S512x1_S512x32_0_1 (Host.log (broadcastInDim S512x1 ![0] bcast_S512_S512x1_0 (Host.reduceAdd (Host.exp (subf (addf (Host.dotGeneral dot_S512x64_S64x32_S512x32_1_0_0_1_n_n none (maximumf (addf (Host.dotGeneral dot_S512x64_S64x64_S512x64_1_0_0_1_n_n none (Host.scatterAdd scatter_S512x64_S50000x1_S50000x64_1_0_0_1 (broadcastInDim S512x64 ![] bcast_S_S512x64 (constant (F := Ideal) S_ .f32 0x00000000#32)) (broadcastInDim S50000x1 ![0] bcast_S50000_S50000x1_0 a2) (addf (addf (Host.dotGeneral dot_S50000x64_S64x64_S50000x64_1_0_0_1_n_n none (Host.scatterAdd scatter_S50000x64_S600000x1_S600000x64_1_0_0_1 (broadcastInDim S50000x64 ![] bcast_S_S50000x64 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x64_S600000x1_S600000x64_1_0_n_n_0_1_164 (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S64x64 [1, 0] a9 transposes_S64x64_S64x64_1_0)) (broadcastInDim S50000x64 ![0, 1] bcast_S1x64_S50000x64_0_1 (broadcastInDim S1x64 ![1] bcast_S64_S1x64_1 a10))) (Host.dotGeneral dot_S50000x64_S64x64_S50000x64_1_0_0_1_n_n none (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (transpose S64x64 [1, 0] a11 transposes_S64x64_S64x64_1_0)))) (transpose S64x64 [1, 0] a12 transposes_S64x64_S64x64_1_0)) (broadcastInDim S512x64 ![0, 1] bcast_S1x64_S512x64_0_1 (broadcastInDim S1x64 ![1] bcast_S64_S1x64_1 a13))) (broadcastInDim S512x64 ![] bcast_S_S512x64 (constant (F := Ideal) S_ .f32 0x00000000#32))) (transpose S64x32 [1, 0] a14 transposes_S32x64_S64x32_1_0)) (broadcastInDim S512x32 ![0, 1] bcast_S1x32_S512x32_0_1 (broadcastInDim S1x32 ![1] bcast_S32_S1x32_1 a15))) (broadcastInDim S512x32 ![0, 1] bcast_S512x1_S512x32_0_1 (broadcastInDim S512x1 ![0] bcast_S512_S512x1_0 (maximumf (broadcastInDim S512 ![] bcast_S_S512 (constant (F := Ideal) S_ .f32 0xFF800000#32)) (Host.reduce FloatOps.maximumf (addf (Host.dotGeneral dot_S512x64_S64x32_S512x32_1_0_0_1_n_n none (maximumf (addf (Host.dotGeneral dot_S512x64_S64x64_S512x64_1_0_0_1_n_n none (Host.scatterAdd scatter_S512x64_S50000x1_S50000x64_1_0_0_1 (broadcastInDim S512x64 ![] bcast_S_S512x64 (constant (F := Ideal) S_ .f32 0x00000000#32)) (broadcastInDim S50000x1 ![0] bcast_S50000_S50000x1_0 a2) (addf (addf (Host.dotGeneral dot_S50000x64_S64x64_S50000x64_1_0_0_1_n_n none (Host.scatterAdd scatter_S50000x64_S600000x1_S600000x64_1_0_0_1 (broadcastInDim S50000x64 ![] bcast_S_S50000x64 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x64_S600000x1_S600000x64_1_0_n_n_0_1_164 (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S64x64 [1, 0] a9 transposes_S64x64_S64x64_1_0)) (broadcastInDim S50000x64 ![0, 1] bcast_S1x64_S50000x64_0_1 (broadcastInDim S1x64 ![1] bcast_S64_S1x64_1 a10))) (Host.dotGeneral dot_S50000x64_S64x64_S50000x64_1_0_0_1_n_n none (maximumf (addf (addf (Host.dotGeneral dot_S50000x128_S128x64_S50000x64_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x64 [1, 0] a6 transposes_S64x128_S128x64_1_0)) (broadcastInDim S50000x64 ![0, 1] bcast_S1x64_S50000x64_0_1 (broadcastInDim S1x64 ![1] bcast_S64_S1x64_1 a7))) (Host.dotGeneral dot_S50000x128_S128x64_S50000x64_1_0_0_1_n_n none (maximumf (addf (addf (Host.dotGeneral dot_S50000x128_S128x128_S50000x128_1_0_0_1_n_n none (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] a1 slices_S2x600000_S1x600000_1_0) shapeCasts_S1x600000_S600000)) (Host.gather gather_S50000x128_S600000x1_S600000x128_1_0_n_n_0_1_1128 a0 (broadcastInDim S600000x1 ![0] bcast_S600000_S600000x1_0 (select (cmpi .slt (shapeCast _ (extractStridedSlice S1x600000 ![0, 0] a1 slices_S2x600000_S1x600000_0_0) shapeCasts_S1x600000_S600000) (broadcastInDim S600000 ![] bcast_S_S600000 (constantI S_ 32 0#32))) (addi (shapeCast _ (extractStridedSlice S1x600000 ![0, 0] a1 slices_S2x600000_S1x600000_0_0) shapeCasts_S1x600000_S600000) (broadcastInDim S600000 ![] bcast_S_S600000 (constantI S_ 32 50000#32))) (shapeCast _ (extractStridedSlice S1x600000 ![0, 0] a1 slices_S2x600000_S1x600000_0_0) shapeCasts_S1x600000_S600000))))) (transpose S128x128 [1, 0] a3 transposes_S128x128_S128x128_1_0)) (broadcastInDim S50000x128 ![0, 1] bcast_S1x128_S50000x128_0_1 (broadcastInDim S1x128 ![1] bcast_S128_S1x128_1 a4))) (Host.dotGeneral dot_S50000x128_S128x128_S50000x128_1_0_0_1_n_n none a0 (transpose S128x128 [1, 0] a5 transposes_S128x128_S128x128_1_0))) (broadcastInDim S50000x128 ![] bcast_S_S50000x128 (constant (F := Ideal) S_ .f32 0x00000000#32))) (transpose S128x64 [1, 0] a8 transposes_S64x128_S128x64_1_0))) (broadcastInDim S50000x64 ![] bcast_S_S50000x64 (constant (F := Ideal) S_ .f32 0x00000000#32))) (transpose S64x64 [1, 0] a11 transposes_S64x64_S64x64_1_0)))) (transpose S64x64 [1, 0] a12 transposes_S64x64_S64x64_1_0)) (broadcastInDim S512x64 ![0, 1] bcast_S1x64_S512x64_0_1 (broadcastInDim S1x64 ![1] bcast_S64_S1x64_1 a13))) (broadcastInDim S512x64 ![] bcast_S_S512x64 (constant (F := Ideal) S_ .f32 0x00000000#32))) (transpose S64x32 [1, 0] a14 transposes_S32x64_S64x32_1_0)) (broadcastInDim S512x32 ![0, 1] bcast_S1x32_S512x32_0_1 (broadcastInDim S1x32 ![1] bcast_S32_S1x32_1 a15))) (constant (F := Ideal) S_ .f32 0xFF800000#32) reducesTo_S512x32_S512_d1 h_S_)))))) (constant (F := Ideal) S_ .f32 0x00000000#32) reducesTo_S512x32_S512_d1 h_S_))))
      = out a0 a1 a2 a3 a4 a5 a6 a7 a8 a9 a10 a11 a12 a13 a14 a15 := by
  rw [layer1_eq, layer2_eq, layer3_eq, head_eq]
  rfl

/-- THE RESULT: the reference program's result term is the network of the launch memory's arguments. -/
theorem result_eq (m : (ℓ : Loc nD τ sig) → Buf (Elt Ideal) ℓ) (c : Dev nD) :
    Cert.ReferenceIdeal.ValueP.res_main_v74 (F := Ideal) m c =
      out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) :=
  term_eq (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15))

end Cert.ReferenceIdeal.RefVal

end
-- ==== Proof.lean ====
/-
  A three-layer graph-convolution network with a pooled classifier head: the kernel program against the plain reference.

  Both programs compute, on the extended reals,

      h₁ = max (conv x)  0,   h₂ = max (conv h₁) 0,   h₃ = conv h₂,   out = logsoftmax (dense₂ (max (dense₁ (pool h₃)) 0))

  where `conv h` at node `p`, feature `q` is `∑ₖ (agg h) p k · Wrel q k + ∑ₖ h p k · Wroot q k + b q`, `agg` sums the rows of the
  neighbours along the edges and `pool` sums the rows of each graph. The kernel program runs the three dense parts and the
  head as four block-wise launches and leaves `agg` and `pool` to the same host operations the reference uses, so those
  stay opaque: the proof never opens a gather or a scatter. What differs is only the order of the three summands of
  `conv` (the reference adds the bias before the second product sum), which commutativity and associativity of addition
  on the extended reals settle — no finiteness is used —, and that the reference takes one more maximum with `-∞` over the
  row maximum, which changes nothing.

  The kernel side: each launch's result array is the layer function of the arrays the launch finds (one module per
  launch), the boundaries between launches are read back through the host operations, and the program's run names its
  result buffer at the last boundary. The reference side: its run's closed term is rewritten, layer by layer, into the same
  functions. The two compositions are then the same term up to the two programs' spellings of the shared host operations.
-/
import proofs.«114097_j85770496901295_1_alg».proof.Defs
import proofs.«114097_j85770496901295_1_alg».proof.Proof.Gen.Kernel
import proofs.«114097_j85770496901295_1_alg».proof.Proof.Gen.Kernel.Skeleton
import proofs.«114097_j85770496901295_1_alg».proof.Proof.Gen.Kernel.Launch
import proofs.«114097_j85770496901295_1_alg».proof.Proof.Gen.Kernel.Points
import proofs.«114097_j85770496901295_1_alg».proof.Proof.Gen.Kernel.Frame
import proofs.«114097_j85770496901295_1_alg».proof.Proof.Gen.KernelIdeal
import proofs.«114097_j85770496901295_1_alg».proof.Proof.Gen.KernelIdeal.Skeleton
import proofs.«114097_j85770496901295_1_alg».proof.Proof.Gen.KernelIdeal.Launch
import proofs.«114097_j85770496901295_1_alg».proof.Proof.Gen.KernelIdeal.Points
import proofs.«114097_j85770496901295_1_alg».proof.Proof.Gen.KernelIdeal.Frame
import proofs.«114097_j85770496901295_1_alg».proof.Proof.Gen.ReferenceIdeal
import proofs.«114097_j85770496901295_1_alg».proof.Proof.Gen.Pre_finite_inputs
import proofs.«114097_j85770496901295_1_alg».proof.Proof.KRun
import proofs.«114097_j85770496901295_1_alg».proof.Proof.KReg0
import proofs.«114097_j85770496901295_1_alg».proof.Proof.KReg1
import proofs.«114097_j85770496901295_1_alg».proof.Proof.KReg2
import proofs.«114097_j85770496901295_1_alg».proof.Proof.KReg3
import proofs.«114097_j85770496901295_1_alg».proof.Proof.KThread
import proofs.«114097_j85770496901295_1_alg».proof.Proof.RefRun
import proofs.«114097_j85770496901295_1_alg».proof.Proof.RefVal
import Idealize.ShloMosaic.Adequacy
import Idealize.ShloMosaic.Init

noncomputable section

namespace Cert.Proof

open Idealize.ShloMosaic Idealize.SL.Sem

/-- The three programs run, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- What the four launches leave. -/
theorem finals : Cert.KernelIdeal.KThread.Finals :=
  ⟨Cert.KernelIdeal.KReg0.final, Cert.KernelIdeal.KReg1.final, Cert.KernelIdeal.KReg2.final, Cert.KernelIdeal.KReg3.final⟩

/-- The two programs' compositions are one function: they spell the same host operations over the same shapes. -/
theorem out_eq : @Cert.ReferenceIdeal.RefVal.out = @Cert.KernelIdeal.KThread.out := rfl

/-- The two idealized programs end with equal results. -/
theorem algebraic : Cert.algebraic_KernelIdeal_ReferenceIdeal := by
  intro m ρ m' ρ' _ hagree
  refine ⟨fun c => Cert.KernelIdeal.KThread.out
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    ?_, ?_⟩
  · exact (θ_run Cert.KernelIdeal.defs _ _).mono
      (fun r h c => ⟨(h c).1.trans (Cert.KernelIdeal.KThread.result_eq m ρ finals c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15⟩ := hagree c
    rw [Cert.ReferenceIdeal.RefVal.result_eq, h0, h1, h2, h3, h4, h5, h6, h7, h8, h9, h10, h11, h12, h13, h14, h15, out_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
